-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S8192x4096 : Shape := ⟨2, ![8192, 4096]⟩
abbrev S4096 : Shape := ⟨1, ![4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg7 : FVec F S8192x4096 .f32) (main_arg8 : FVec F S4096 .f32) (main_arg9 : FVec F S8192x4096 .f32) (main_arg10 : FVec F S4096 .f32) (main_v33 : IVec S_ 1) : IVec S_ 1 :=
  let main_v34 : FVec F S8192x4096 .f32 := Host.absf main_arg7
  let main_cst_12 : FVec F S_ .f32 := constant S_ .f32 0x7F800000#32
  let main_v35 : FVec F S8192x4096 .f32 := broadcastInDim S8192x4096 ![] bcast_S_S8192x4096 main_cst_12
  let main_v36 : IVec S8192x4096 1 := cmpf .olt main_v34 main_v35
  let main_c_13 : IVec S_ 1 := constantI S_ 1 1#1
  let main_v37 : IVec S_ 1 := (fun x v => Host.reduce IntOp.andi x v reducesTo_S8192x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S8192x4096 .f32 := Host.absf main_arg9
  let main_cst_16 : FVec F S_ .f32 := constant S_ .f32 0x7F800000#32
  let main_v45 : FVec F S8192x4096 .f32 := broadcastInDim S8192x4096 ![] bcast_S_S8192x4096 main_cst_16
  let main_v46 : IVec S8192x4096 1 := cmpf .olt main_v44 main_v45
  let main_c_17 : IVec S_ 1 := constantI S_ 1 1#1
  let main_v47 : IVec S_ 1 := (fun x v => Host.reduce IntOp.andi x v reducesTo_S8192x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S8192x4096 .f32 := Host.absf main_arg5
  let main_cst_8 : FVec F S_ .f32 := constant S_ .f32 0x7F800000#32
  let main_v25 : FVec F S8192x4096 .f32 := broadcastInDim S8192x4096 ![] bcast_S_S8192x4096 main_cst_8
  let main_v26 : IVec S8192x4096 1 := cmpf .olt main_v24 main_v25
  let main_c_9 : IVec S_ 1 := constantI S_ 1 1#1
  let main_v27 : IVec S_ 1 := (fun x v => Host.reduce IntOp.andi x v reducesTo_S8192x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x4096 .f32) (main_arg1 : FVec F S1x4096 .f32) (main_arg2 : FVec F S1x4096 .f32) (main_arg3 : FVec F S8192x4096 .f32) (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_v13 main_v16
-- ==== Kernel.lean ====
abbrev S1x4096 : Shape := ⟨2, ![1, 4096]⟩
abbrev S8192x4096 : Shape := ⟨2, ![8192, 4096]⟩
abbrev S4096 : Shape := ⟨1, ![4096]⟩
abbrev S1x8192 : Shape := ⟨2, ![1, 8192]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 17
  | .vmem => 26
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S1x8192, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .local _ .vmem, ⟨0, _⟩ => ⟨S1x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  concatenates_S1x4096_S1x4096_S1x8192_d1 : Shape.Concatenates [S1x4096, S1x4096] S1x8192 1
  shapeCasts_S4096_S1x4096 : S4096.ShapeCasts S1x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  dot_S1x1024_S1024x512_S1x512_1_0_0_1_n_n_wf : DotDims.WF S1x1024 S1024x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .f32 = 32 ∨ (Rect.block (s := S1x8192) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .f32 = 32 ∨ (Rect.block (s := S8192x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x4096.size a
  hwx0_9 : ∀ i : grid0.Coords, EltTy.bits .f32 = 32 ∨ (Rect.block (s := S1x4096) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x4096.size a
  hwx0_10 : ∀ i : grid0.Coords, EltTy.bits .f32 = 32 ∨ (Rect.block (s := S1x4096) S1x512.size (cc0_transform_10 i) (hinb0_10 i)).WholeWords (EltTy.packing .f32)

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S1x4096 : Shape := ⟨2, ![1, 4096]⟩
abbrev S8192x4096 : Shape := ⟨2, ![8192, 4096]⟩
abbrev S4096 : Shape := ⟨1, ![4096]⟩
abbrev S1x8192 : Shape := ⟨2, ![1, 8192]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S1x8192, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S_, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  concatenates_S1x4096_S1x4096_S1x8192_d1 : Shape.Concatenates [S1x4096, S1x4096] S1x8192 1
  bcast_S4096_S1x4096_1 : S4096.BroadcastsInDim S1x4096 (![1] : Fin 1 → Fin S1x4096.rank)
  bcast_S_S1x4096 : S_.BroadcastsInDim S1x4096 (![] : Fin 0 → Fin S1x4096.rank)
  dot_S1x8192_S8192x4096_S1x4096_1_0_0_1_n_n_wf : DotDims.WF S1x8192 S8192x4096 S1x4096 [1] [0] [0] [1] [] []

variable [Facts₀]

def dot_S1x8192_S8192x4096_S1x4096_1_0_0_1_n_n : DotDims S1x8192 S8192x4096 S1x4096 where
  lhsContracting := [1]
  rhsContracting := [0]
  lhsNonContracting := [0]
  rhsNonContracting := [1]
  lhsBatch := []
  rhsBatch := []
  wf := dot_S1x8192_S8192x4096_S1x4096_1_0_0_1_n_n_wf

class Facts : Prop extends Facts₀ where

variable [Facts]
-- ==== Proof.Pieces.lean ====
/-
  What one grid point's body leaves in the four running sums and in the output block, case by case.

  The body keeps four rows of 512 running sums (one per gate: forget, input, candidate, output). At a point
  that continues a reduction (k > 0) each sum becomes "what the point before left, plus the product of the
  point's 1024-long stretch of the joined row with the point's 1024 x 512 tile of the gate's weights". At a point
  that begins a reduction (k = 0) the same, over the zero row the point stores first and reads back. At a point that ends a
  reduction (k = 7) the output block is the gate formula of the four sums as just updated (each is read back after its
  update), the four bias blocks and the cell-state block.
-/
import proofs.«128584_j66554813218870_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]
variable (c : Dev nD) (i : grid0.Coords)
  (arg2 : Memref sig .tc .vmem S1x1024 .f32) (harg2 : arg2.IsWhole)
  (arg3 : Memref sig .tc .vmem S1024x512 .f32) (harg3 : arg3.IsWhole)
  (arg4 : Memref sig .tc .vmem S1024x512 .f32) (harg4 : arg4.IsWhole)
  (arg5 : Memref sig .tc .vmem S1024x512 .f32) (harg5 : arg5.IsWhole)
  (arg6 : Memref sig .tc .vmem S1024x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S1x512 .f32) (harg16 : arg16.IsWhole)
  (x0 : Vec F S1x1024 .f32) (x1 x2 x3 x4 : Vec F S1024x512 .f32) (x5 x6 x7 x8 x9 : Vec F S1x512 .f32)
  (xs0 xs1 xs2 xs3 : Vec F S1x512 .f32)

theorem hz : (![0, 0] : Fin 2 → Nat) = fun _ => 0 := funext fun a => by fin_cases a <;> rfl

theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay8 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sC0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay8 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay8 x0 (k0_pay3 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay9 x0 xs1 x2 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sC1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay9 x0 xs1 x2 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay9 x0 (k0_pay4 (F := F)) x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sB2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay10 x0 xs2 x3 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sC2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay10 x0 xs2 x3 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sA2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay10 x0 (k0_pay5 (F := F)) x3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sB3 (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay1 (k0_pay7 x0) xs3 x4 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sC3 (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay1 (k0_pay7 x0) xs3 x4 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem sA3 (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay1 (k0_pay7 x0) (k0_pay6 (F := F)) x4 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz]

theorem oC (hc0 : ¬cond0_0 i) (hc1 : cond0_1 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay2 (k0_pay8 x0 xs0 x1) x5 (k0_pay9 x0 xs1 x2) x6 (k0_pay10 x0 xs2 x3) x7 (k0_pay1 (k0_pay7 x0) xs3 x4) x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x1024) hz, View.ld_unit_zero (S := S1x512) hz, View.ld_unit_zero (S := S1024x512) hz, View.readCov_unit_zero (S := S1x512) _ hz]

end Cert.KernelIdeal.Pieces

end
-- ==== Proof.Payload.lean ====
/-
  The body's arithmetic read at one column, over the extended reals.

  A running-sum update at column j of a block: what was there, plus the sum over the 1024 positions of the stretch of
  (joined row at the position) * (weight tile at the position, column j) — the narrowing of both operands to a shorter
  float format is the identity on the extended reals, and the product into a zero accumulator is the bare sum.
  The reset row is zero. The closing formula at column j is
      sigma(s_o + b_o) * tanh(c0 * sigma(s_f + b_f) + tanh(s_c + b_c) * sigma(s_i + b_i)).
-/
import proofs.«128584_j66554813218870_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ## The product's operand indices, axis by axis -/

theorem lhs_0 (j : S1x512.Idx) (q : dot_S1x1024_S1024x512_S1x512_1_0_0_1_n_n.contr.Idx) :
    (dot_S1x1024_S1024x512_S1x512_1_0_0_1_n_n.lhsIdx j q 0).val = (j 0).val := by
  unfold DotDims.lhsIdx
  rw [dif_neg (show ¬(0 : Fin S1x1024.rank) ∈ dot_S1x1024_S1024x512_S1x512_1_0_0_1_n_n.lhsBatch by decide), dif_pos (show (0 : Fin S1x1024.rank) ∈ dot_S1x1024_S1024x512_S1x512_1_0_0_1_n_n.lhsNonContracting by decide)]
  rfl
theorem lhs_1 (j : S1x512.Idx) (q : dot_S1x1024_S1024x512_S1x512_1_0_0_1_n_n.contr.Idx) :
    (dot_S1x1024_S1024x512_S1x512_1_0_0_1_n_n.lhsIdx j q 1).val = (q ⟨0, by decide⟩).val :=
  dot_S1x1024_S1024x512_S1x512_1_0_0_1_n_n.lhsIdx_val_of_single rfl j q
theorem rhs_0 (j : S1x512.Idx) (q : dot_S1x1024_S1024x512_S1x512_1_0_0_1_n_n.contr.Idx) :
    (dot_S1x1024_S1024x512_S1x512_1_0_0_1_n_n.rhsIdx j q 0).val = (q ⟨0, by decide⟩).val :=
  dot_S1x1024_S1024x512_S1x512_1_0_0_1_n_n.rhsIdx_val_of_single rfl j q
theorem rhs_1 (j : S1x512.Idx) (q : dot_S1x1024_S1024x512_S1x512_1_0_0_1_n_n.contr.Idx) :
    (dot_S1x1024_S1024x512_S1x512_1_0_0_1_n_n.rhsIdx j q 1).val = (j 1).val := by
  unfold DotDims.rhsIdx
  rw [dif_neg (show ¬(1 : Fin S1024x512.rank) ∈ dot_S1x1024_S1024x512_S1x512_1_0_0_1_n_n.rhsBatch by decide), dif_pos (show (1 : Fin S1024x512.rank) ∈ dot_S1x1024_S1024x512_S1x512_1_0_0_1_n_n.rhsNonContracting by decide)]
  rfl

/-- The row-by-tile product into a zero accumulator, at column j: the sum over the stretch's 1024 positions. -/
theorem mm_apply {φ₁ φ₂ : FTy} (l : FVec Ideal S1x1024 φ₁) (r : FVec Ideal S1024x512 φ₂) (j : S1x512.Idx) :
    matmul dot_S1x1024_S1024x512_S1x512_1_0_0_1_n_n none l r (constant (F := Ideal) S1x512 .f32 0x00000000#32) j
      = ∑ kk : Fin 1024, l (ix2 (0 : Fin 1) kk) * r (ix2 kk (j 1)) := by
  simp only [matmul]
  rw [Ideal.matmul_constant_zero_apply, ← Equiv.sum_comp (ValueIdx.contrEquiv1 dot_S1x1024_S1024x512_S1x512_1_0_0_1_n_n 1024 rfl rfl).symm]
  refine Finset.sum_congr rfl fun k _ => ?_
  have hk := ValueIdx.contrEquiv1_symm_val dot_S1x1024_S1024x512_S1x512_1_0_0_1_n_n 1024 rfl rfl k
  have el : dot_S1x1024_S1024x512_S1x512_1_0_0_1_n_n.lhsIdx j ((ValueIdx.contrEquiv1 dot_S1x1024_S1024x512_S1x512_1_0_0_1_n_n 1024 rfl rfl).symm k) = ix2 (0 : Fin 1) k := funext fun a => Fin.ext (by
    match a with
    | ⟨0, _⟩ => exact (lhs_0 _ _).trans (by have h := idx2_lt0 j; show (j 0).val = 0; omega)
    | ⟨1, _⟩ => exact (lhs_1 _ _).trans hk)
  have er : dot_S1x1024_S1024x512_S1x512_1_0_0_1_n_n.rhsIdx j ((ValueIdx.contrEquiv1 dot_S1x1024_S1024x512_S1x512_1_0_0_1_n_n 1024 rfl rfl).symm k) = ix2 k (j 1) := funext fun a => Fin.ext (by
    match a with
    | ⟨0, _⟩ => exact (rhs_0 _ _).trans hk
    | ⟨1, _⟩ => exact rhs_1 _ _)
  rw [el, er]
  rfl

/-! ## The payloads at a column -/

/-- One running-sum update at column j. -/
def upd (x0 : Vec Ideal S1x1024 .f32) (acc : Vec Ideal S1x512 .f32) (w : Vec Ideal S1024x512 .f32) (j : S1x512.Idx) : EReal :=
  acc j + ∑ kk : Fin 1024, x0 (ix2 (0 : Fin 1) kk) * w (ix2 kk (j 1))

theorem pay8_apply (x0 : Vec Ideal S1x1024 .f32) (acc : Vec Ideal S1x512 .f32) (w : Vec Ideal S1024x512 .f32) (j : S1x512.Idx) :
    k0_pay8 (F := Ideal) x0 acc w j = upd x0 acc w j := by
  unfold k0_pay8 k0_pay7 upd
  simp only [shapeCast_self]
  exact congrArg (acc j + ·) (mm_apply _ _ j)

theorem pay9_apply (x0 : Vec Ideal S1x1024 .f32) (acc : Vec Ideal S1x512 .f32) (w : Vec Ideal S1024x512 .f32) (j : S1x512.Idx) :
    k0_pay9 (F := Ideal) x0 acc w j = upd x0 acc w j := by
  unfold k0_pay9 k0_pay7 upd
  simp only [shapeCast_self]
  exact congrArg (acc j + ·) (mm_apply _ _ j)

theorem pay10_apply (x0 : Vec Ideal S1x1024 .f32) (acc : Vec Ideal S1x512 .f32) (w : Vec Ideal S1024x512 .f32) (j : S1x512.Idx) :
    k0_pay10 (F := Ideal) x0 acc w j = upd x0 acc w j := by
  unfold k0_pay10 k0_pay7 upd
  simp only [shapeCast_self]
  exact congrArg (acc j + ·) (mm_apply _ _ j)

theorem pay1_apply (x0 : Vec Ideal S1x1024 .f32) (acc : Vec Ideal S1x512 .f32) (w : Vec Ideal S1024x512 .f32) (j : S1x512.Idx) :
    k0_pay1 (F := Ideal) (k0_pay7 x0) acc w j = upd x0 acc w j := by
  unfold k0_pay1 k0_pay7 upd
  simp only [shapeCast_self]
  exact congrArg (acc j + ·) (mm_apply _ _ j)

/-- The reset rows are zero. -/
theorem pay3_apply (j : S1x512.Idx) : k0_pay3 (F := Ideal) j = 0 := by
  unfold k0_pay3; simp only [shapeCast_self]; exact Ideal.ofBits_zero_f32
theorem pay4_apply (j : S1x512.Idx) : k0_pay4 (F := Ideal) j = 0 := by
  unfold k0_pay4; simp only [shapeCast_self]; exact Ideal.ofBits_zero_f32
theorem pay5_apply (j : S1x512.Idx) : k0_pay5 (F := Ideal) j = 0 := by
  unfold k0_pay5; simp only [shapeCast_self]; exact Ideal.ofBits_zero_f32
theorem pay6_apply (j : S1x512.Idx) : k0_pay6 (F := Ideal) j = 0 := by
  unfold k0_pay6; simp only [shapeCast_self]; exact Ideal.ofBits_zero_f32

/-- The closing formula at column j, of the four sums, the four bias blocks and the cell-state block. -/
theorem pay2_apply (sf bf si bi sc bc so bo c0 : Vec Ideal S1x512 .f32) (j : S1x512.Idx) :
    k0_pay2 (F := Ideal) sf bf si bi sc bc so bo c0 j
      = Ideal.logistic (so j + bo j) * Ideal.tanh (c0 j * Ideal.logistic (sf j + bf j) + Ideal.tanh (sc j + bc j) * Ideal.logistic (si j + bi j)) := by
  unfold k0_pay2
  simp only [shapeCast_self]
  rfl

end Cert.KernelIdeal.Payload

end
-- ==== Proof.Sums.lean ====
/-
  The four running sums after a point that ends a reduction.

  Along a reduction (eight consecutive grid points sharing a column block) each running sum is reset-and-updated at the
  first point and updated at the seven others; so after the eighth point it is, column by column, the sum of the eight
  points' addends — each addend the product of the point's 1024-long stretch of the joined row with the point's tile of
  the gate's weights. Only associativity of addition is used: no term need be finite.
-/
import proofs.«128584_j66554813218870_1_alg».proof.Proof.Gen.KernelIdeal.Value
import proofs.«128584_j66554813218870_1_alg».proof.Proof.Pieces
import proofs.«128584_j66554813218870_1_alg».proof.Proof.Payload
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen

variable (m : (ℓ : Loc nD τ sig) → Buf (Elt Ideal) ℓ)

/-- A fold's length may be replaced by an equal one. -/
theorem accAt_len {α : Type*} {N : ℕ} (a : (n : ℕ) → n < N → α) (g : (n : ℕ) → n < N → α → α) (b j j' : ℕ)
    (h : b + j < N) (h' : b + j' < N) (e : j = j') : Pipeline.accAt a g b j h = Pipeline.accAt a g b j' h' := by
  subst e; rfl

/-- The point's stretch of the joined row, the point's tile of each gate's weights, the bias blocks and the cell-state block,
    each at its literal shape. -/
abbrev xrow (c : Dev nD) (t : Fin cfg0.N) : Vec Ideal S1x1024 .f32 := iblk m c 0 t
abbrev wtile1 (c : Dev nD) (t : Fin cfg0.N) : Vec Ideal S1024x512 .f32 := iblk m c 1 t
abbrev wtile2 (c : Dev nD) (t : Fin cfg0.N) : Vec Ideal S1024x512 .f32 := iblk m c 2 t
abbrev wtile3 (c : Dev nD) (t : Fin cfg0.N) : Vec Ideal S1024x512 .f32 := iblk m c 3 t
abbrev wtile4 (c : Dev nD) (t : Fin cfg0.N) : Vec Ideal S1024x512 .f32 := iblk m c 4 t
abbrev bblk5 (c : Dev nD) (t : Fin cfg0.N) : Vec Ideal S1x512 .f32 := iblk m c 5 t
abbrev bblk6 (c : Dev nD) (t : Fin cfg0.N) : Vec Ideal S1x512 .f32 := iblk m c 6 t
abbrev bblk7 (c : Dev nD) (t : Fin cfg0.N) : Vec Ideal S1x512 .f32 := iblk m c 7 t
abbrev bblk8 (c : Dev nD) (t : Fin cfg0.N) : Vec Ideal S1x512 .f32 := iblk m c 8 t
abbrev cblk (c : Dev nD) (t : Fin cfg0.N) : Vec Ideal S1x512 .f32 := iblk m c 9 t

/-! ## Running sum 0 -/

/-- At a point that begins a reduction the running sum is the update of the zero row. -/
theorem reset0 (c : Dev nD) (n : ℕ) (hb : n < cfg0.N) (h0 : n % 8 = 0) (acc : Vec Ideal S1x512 .f32) :
    Value.scAt0_0 m c n hb acc = k0_pay8 (xrow m c (⟨n, hb⟩ : Fin cfg0.N)) (k0_pay3 (F := Ideal)) (wtile1 m c (⟨n, hb⟩ : Fin cfg0.N)) := by
  have h1 : ¬n % 8 = 7 := by omega
  unfold Value.scAt0_0
  rw [dif_pos h0, dif_neg h1]
  exact Pieces.sA0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) ((hcond0_0 (⟨n, hb⟩ : Fin cfg0.N)).mpr h0) (fun h => h1 ((hcond0_1 (⟨n, hb⟩ : Fin cfg0.N)).mp h))

/-- At every other point it is the update of what the point before left. -/
theorem step0 (c : Dev nD) (n : ℕ) (hb : n < cfg0.N) (h0 : ¬n % 8 = 0) (acc : Vec Ideal S1x512 .f32) :
    Value.scAt0_0 m c n hb acc = k0_pay8 (xrow m c (⟨n, hb⟩ : Fin cfg0.N)) acc (wtile1 m c (⟨n, hb⟩ : Fin cfg0.N)) := by
  unfold Value.scAt0_0
  rw [dif_neg h0]
  by_cases h1 : n % 8 = 7
  · rw [dif_pos h1]
    exact Pieces.sC0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2 (fun h => h0 ((hcond0_0 (⟨n, hb⟩ : Fin cfg0.N)).mp h)) ((hcond0_1 (⟨n, hb⟩ : Fin cfg0.N)).mpr h1)
  · rw [dif_neg h1]
    exact Pieces.sB0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2 (fun h => h0 ((hcond0_0 (⟨n, hb⟩ : Fin cfg0.N)).mp h)) (fun h => h1 ((hcond0_1 (⟨n, hb⟩ : Fin cfg0.N)).mp h))

/-- Point n's addend to running sum 0 at column y: the product of the point's stretch of the joined row with column y
    of the point's weight tile (zero past the grid). -/
def addend0 (c : Dev nD) (n : ℕ) (y : S1x512.Idx) : EReal :=
  if hb : n < cfg0.N then
    ∑ kk : Fin 1024, xrow m c (⟨n, hb⟩ : Fin cfg0.N) (ix2 (0 : Fin 1) kk) * wtile1 m c (⟨n, hb⟩ : Fin cfg0.N) (ix2 kk (y 1))
  else 0

/-- The running sum after the eighth point of a reduction is the sum of the eight points' addends. -/
theorem fold0 (c : Dev nD) (q : ℕ) (hq : 8 * q + 7 < cfg0.N) (y : S1x512.Idx) :
    Pipeline.accAt (fun n h => Value.scAt0_0 m c n h (VS0_0.read (Elt Ideal) VS0_0.junk)) (Value.scAt0_0 m c) (8 * q) 7 hq y
      = ∑ s ∈ Finset.range 8, addend0 m c (8 * q + s) y := by
  have key := Pipeline.accAt_add_apply (fun n h => Value.scAt0_0 m c n h (VS0_0.read (Elt Ideal) VS0_0.junk)) (Value.scAt0_0 m c)
    (fun _ => (0 : EReal)) (addend0 m c) (8 * q) 7
    (fun hb i => by
      show Value.scAt0_0 m c (8 * q) hb _ i = _
      rw [reset0 m c (8 * q) hb (by omega) _]
      refine (Payload.pay8_apply (xrow m c ⟨8 * q, hb⟩) (k0_pay3 (F := Ideal)) (wtile1 m c ⟨8 * q, hb⟩) i).trans ?_
      unfold Payload.upd addend0
      rw [dif_pos hb, Payload.pay3_apply])
    (fun n hb acc i h1 h2 => by
      rw [step0 m c n hb (by omega) acc]
      refine (Payload.pay8_apply (xrow m c ⟨n, hb⟩) acc (wtile1 m c ⟨n, hb⟩) i).trans ?_
      unfold Payload.upd addend0
      rw [dif_pos hb])
    7 le_rfl hq y
  rw [key, zero_add]

/-- So after a point that ends a reduction the running sum, at column y, is that sum. -/
theorem sum0_at (c : Dev nD) (t : Fin cfg0.N) (h7 : t.val % 8 = 7) (y : S1x512.Idx) :
    (outsAt0 m c t.val t.isLt).2.1 y = ∑ s ∈ Finset.range 8, addend0 m c (8 * (t.val / 8) + s) y := by
  have hN : cfg0.N = 64 := N_0
  have hlt := t.isLt
  have hq : 8 * (t.val / 8) + 7 < cfg0.N := by omega
  rw [Value.soutsAt0_0_eq m c t]
  exact (congrFun (accAt_len _ _ (8 * (t.val / 8)) (t.val % 8) 7 _ hq h7) y).trans (fold0 m c (t.val / 8) hq y)

/-! ## Running sum 1 -/

/-- At a point that begins a reduction the running sum is the update of the zero row. -/
theorem reset1 (c : Dev nD) (n : ℕ) (hb : n < cfg0.N) (h0 : n % 8 = 0) (acc : Vec Ideal S1x512 .f32) :
    Value.scAt0_1 m c n hb acc = k0_pay9 (xrow m c (⟨n, hb⟩ : Fin cfg0.N)) (k0_pay4 (F := Ideal)) (wtile2 m c (⟨n, hb⟩ : Fin cfg0.N)) := by
  have h1 : ¬n % 8 = 7 := by omega
  unfold Value.scAt0_1
  rw [dif_pos h0, dif_neg h1]
  exact Pieces.sA1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) ((hcond0_0 (⟨n, hb⟩ : Fin cfg0.N)).mpr h0) (fun h => h1 ((hcond0_1 (⟨n, hb⟩ : Fin cfg0.N)).mp h))

/-- At every other point it is the update of what the point before left. -/
theorem step1 (c : Dev nD) (n : ℕ) (hb : n < cfg0.N) (h0 : ¬n % 8 = 0) (acc : Vec Ideal S1x512 .f32) :
    Value.scAt0_1 m c n hb acc = k0_pay9 (xrow m c (⟨n, hb⟩ : Fin cfg0.N)) acc (wtile2 m c (⟨n, hb⟩ : Fin cfg0.N)) := by
  unfold Value.scAt0_1
  rw [dif_neg h0]
  by_cases h1 : n % 8 = 7
  · rw [dif_pos h1]
    exact Pieces.sC1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2 (fun h => h0 ((hcond0_0 (⟨n, hb⟩ : Fin cfg0.N)).mp h)) ((hcond0_1 (⟨n, hb⟩ : Fin cfg0.N)).mpr h1)
  · rw [dif_neg h1]
    exact Pieces.sB1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2 (fun h => h0 ((hcond0_0 (⟨n, hb⟩ : Fin cfg0.N)).mp h)) (fun h => h1 ((hcond0_1 (⟨n, hb⟩ : Fin cfg0.N)).mp h))

/-- Point n's addend to running sum 1 at column y: the product of the point's stretch of the joined row with column y
    of the point's weight tile (zero past the grid). -/
def addend1 (c : Dev nD) (n : ℕ) (y : S1x512.Idx) : EReal :=
  if hb : n < cfg0.N then
    ∑ kk : Fin 1024, xrow m c (⟨n, hb⟩ : Fin cfg0.N) (ix2 (0 : Fin 1) kk) * wtile2 m c (⟨n, hb⟩ : Fin cfg0.N) (ix2 kk (y 1))
  else 0

/-- The running sum after the eighth point of a reduction is the sum of the eight points' addends. -/
theorem fold1 (c : Dev nD) (q : ℕ) (hq : 8 * q + 7 < cfg0.N) (y : S1x512.Idx) :
    Pipeline.accAt (fun n h => Value.scAt0_1 m c n h (VS0_1.read (Elt Ideal) VS0_1.junk)) (Value.scAt0_1 m c) (8 * q) 7 hq y
      = ∑ s ∈ Finset.range 8, addend1 m c (8 * q + s) y := by
  have key := Pipeline.accAt_add_apply (fun n h => Value.scAt0_1 m c n h (VS0_1.read (Elt Ideal) VS0_1.junk)) (Value.scAt0_1 m c)
    (fun _ => (0 : EReal)) (addend1 m c) (8 * q) 7
    (fun hb i => by
      show Value.scAt0_1 m c (8 * q) hb _ i = _
      rw [reset1 m c (8 * q) hb (by omega) _]
      refine (Payload.pay9_apply (xrow m c ⟨8 * q, hb⟩) (k0_pay4 (F := Ideal)) (wtile2 m c ⟨8 * q, hb⟩) i).trans ?_
      unfold Payload.upd addend1
      rw [dif_pos hb, Payload.pay4_apply])
    (fun n hb acc i h1 h2 => by
      rw [step1 m c n hb (by omega) acc]
      refine (Payload.pay9_apply (xrow m c ⟨n, hb⟩) acc (wtile2 m c ⟨n, hb⟩) i).trans ?_
      unfold Payload.upd addend1
      rw [dif_pos hb])
    7 le_rfl hq y
  rw [key, zero_add]

/-- So after a point that ends a reduction the running sum, at column y, is that sum. -/
theorem sum1_at (c : Dev nD) (t : Fin cfg0.N) (h7 : t.val % 8 = 7) (y : S1x512.Idx) :
    (outsAt0 m c t.val t.isLt).2.2.1 y = ∑ s ∈ Finset.range 8, addend1 m c (8 * (t.val / 8) + s) y := by
  have hN : cfg0.N = 64 := N_0
  have hlt := t.isLt
  have hq : 8 * (t.val / 8) + 7 < cfg0.N := by omega
  rw [Value.soutsAt0_1_eq m c t]
  exact (congrFun (accAt_len _ _ (8 * (t.val / 8)) (t.val % 8) 7 _ hq h7) y).trans (fold1 m c (t.val / 8) hq y)

/-! ## Running sum 2 -/

/-- At a point that begins a reduction the running sum is the update of the zero row. -/
theorem reset2 (c : Dev nD) (n : ℕ) (hb : n < cfg0.N) (h0 : n % 8 = 0) (acc : Vec Ideal S1x512 .f32) :
    Value.scAt0_2 m c n hb acc = k0_pay10 (xrow m c (⟨n, hb⟩ : Fin cfg0.N)) (k0_pay5 (F := Ideal)) (wtile3 m c (⟨n, hb⟩ : Fin cfg0.N)) := by
  have h1 : ¬n % 8 = 7 := by omega
  unfold Value.scAt0_2
  rw [dif_pos h0, dif_neg h1]
  exact Pieces.sA2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) ((hcond0_0 (⟨n, hb⟩ : Fin cfg0.N)).mpr h0) (fun h => h1 ((hcond0_1 (⟨n, hb⟩ : Fin cfg0.N)).mp h))

/-- At every other point it is the update of what the point before left. -/
theorem step2 (c : Dev nD) (n : ℕ) (hb : n < cfg0.N) (h0 : ¬n % 8 = 0) (acc : Vec Ideal S1x512 .f32) :
    Value.scAt0_2 m c n hb acc = k0_pay10 (xrow m c (⟨n, hb⟩ : Fin cfg0.N)) acc (wtile3 m c (⟨n, hb⟩ : Fin cfg0.N)) := by
  unfold Value.scAt0_2
  rw [dif_neg h0]
  by_cases h1 : n % 8 = 7
  · rw [dif_pos h1]
    exact Pieces.sC2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2 (fun h => h0 ((hcond0_0 (⟨n, hb⟩ : Fin cfg0.N)).mp h)) ((hcond0_1 (⟨n, hb⟩ : Fin cfg0.N)).mpr h1)
  · rw [dif_neg h1]
    exact Pieces.sB2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2 (fun h => h0 ((hcond0_0 (⟨n, hb⟩ : Fin cfg0.N)).mp h)) (fun h => h1 ((hcond0_1 (⟨n, hb⟩ : Fin cfg0.N)).mp h))

/-- Point n's addend to running sum 2 at column y: the product of the point's stretch of the joined row with column y
    of the point's weight tile (zero past the grid). -/
def addend2 (c : Dev nD) (n : ℕ) (y : S1x512.Idx) : EReal :=
  if hb : n < cfg0.N then
    ∑ kk : Fin 1024, xrow m c (⟨n, hb⟩ : Fin cfg0.N) (ix2 (0 : Fin 1) kk) * wtile3 m c (⟨n, hb⟩ : Fin cfg0.N) (ix2 kk (y 1))
  else 0

/-- The running sum after the eighth point of a reduction is the sum of the eight points' addends. -/
theorem fold2 (c : Dev nD) (q : ℕ) (hq : 8 * q + 7 < cfg0.N) (y : S1x512.Idx) :
    Pipeline.accAt (fun n h => Value.scAt0_2 m c n h (VS0_2.read (Elt Ideal) VS0_2.junk)) (Value.scAt0_2 m c) (8 * q) 7 hq y
      = ∑ s ∈ Finset.range 8, addend2 m c (8 * q + s) y := by
  have key := Pipeline.accAt_add_apply (fun n h => Value.scAt0_2 m c n h (VS0_2.read (Elt Ideal) VS0_2.junk)) (Value.scAt0_2 m c)
    (fun _ => (0 : EReal)) (addend2 m c) (8 * q) 7
    (fun hb i => by
      show Value.scAt0_2 m c (8 * q) hb _ i = _
      rw [reset2 m c (8 * q) hb (by omega) _]
      refine (Payload.pay10_apply (xrow m c ⟨8 * q, hb⟩) (k0_pay5 (F := Ideal)) (wtile3 m c ⟨8 * q, hb⟩) i).trans ?_
      unfold Payload.upd addend2
      rw [dif_pos hb, Payload.pay5_apply])
    (fun n hb acc i h1 h2 => by
      rw [step2 m c n hb (by omega) acc]
      refine (Payload.pay10_apply (xrow m c ⟨n, hb⟩) acc (wtile3 m c ⟨n, hb⟩) i).trans ?_
      unfold Payload.upd addend2
      rw [dif_pos hb])
    7 le_rfl hq y
  rw [key, zero_add]

/-- So after a point that ends a reduction the running sum, at column y, is that sum. -/
theorem sum2_at (c : Dev nD) (t : Fin cfg0.N) (h7 : t.val % 8 = 7) (y : S1x512.Idx) :
    (outsAt0 m c t.val t.isLt).2.2.2.1 y = ∑ s ∈ Finset.range 8, addend2 m c (8 * (t.val / 8) + s) y := by
  have hN : cfg0.N = 64 := N_0
  have hlt := t.isLt
  have hq : 8 * (t.val / 8) + 7 < cfg0.N := by omega
  rw [Value.soutsAt0_2_eq m c t]
  exact (congrFun (accAt_len _ _ (8 * (t.val / 8)) (t.val % 8) 7 _ hq h7) y).trans (fold2 m c (t.val / 8) hq y)

/-! ## Running sum 3 -/

/-- At a point that begins a reduction the running sum is the update of the zero row. -/
theorem reset3 (c : Dev nD) (n : ℕ) (hb : n < cfg0.N) (h0 : n % 8 = 0) (acc : Vec Ideal S1x512 .f32) :
    Value.scAt0_3 m c n hb acc = k0_pay1 (k0_pay7 (xrow m c (⟨n, hb⟩ : Fin cfg0.N))) (k0_pay6 (F := Ideal)) (wtile4 m c (⟨n, hb⟩ : Fin cfg0.N)) := by
  have h1 : ¬n % 8 = 7 := by omega
  unfold Value.scAt0_3
  rw [dif_pos h0, dif_neg h1]
  exact Pieces.sA3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) ((hcond0_0 (⟨n, hb⟩ : Fin cfg0.N)).mpr h0) (fun h => h1 ((hcond0_1 (⟨n, hb⟩ : Fin cfg0.N)).mp h))

/-- At every other point it is the update of what the point before left. -/
theorem step3 (c : Dev nD) (n : ℕ) (hb : n < cfg0.N) (h0 : ¬n % 8 = 0) (acc : Vec Ideal S1x512 .f32) :
    Value.scAt0_3 m c n hb acc = k0_pay1 (k0_pay7 (xrow m c (⟨n, hb⟩ : Fin cfg0.N))) acc (wtile4 m c (⟨n, hb⟩ : Fin cfg0.N)) := by
  unfold Value.scAt0_3
  rw [dif_neg h0]
  by_cases h1 : n % 8 = 7
  · rw [dif_pos h1]
    exact Pieces.sC3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (fun h => h0 ((hcond0_0 (⟨n, hb⟩ : Fin cfg0.N)).mp h)) ((hcond0_1 (⟨n, hb⟩ : Fin cfg0.N)).mpr h1)
  · rw [dif_neg h1]
    exact Pieces.sB3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (fun h => h0 ((hcond0_0 (⟨n, hb⟩ : Fin cfg0.N)).mp h)) (fun h => h1 ((hcond0_1 (⟨n, hb⟩ : Fin cfg0.N)).mp h))

/-- Point n's addend to running sum 3 at column y: the product of the point's stretch of the joined row with column y
    of the point's weight tile (zero past the grid). -/
def addend3 (c : Dev nD) (n : ℕ) (y : S1x512.Idx) : EReal :=
  if hb : n < cfg0.N then
    ∑ kk : Fin 1024, xrow m c (⟨n, hb⟩ : Fin cfg0.N) (ix2 (0 : Fin 1) kk) * wtile4 m c (⟨n, hb⟩ : Fin cfg0.N) (ix2 kk (y 1))
  else 0

/-- The running sum after the eighth point of a reduction is the sum of the eight points' addends. -/
theorem fold3 (c : Dev nD) (q : ℕ) (hq : 8 * q + 7 < cfg0.N) (y : S1x512.Idx) :
    Pipeline.accAt (fun n h => Value.scAt0_3 m c n h (VS0_3.read (Elt Ideal) VS0_3.junk)) (Value.scAt0_3 m c) (8 * q) 7 hq y
      = ∑ s ∈ Finset.range 8, addend3 m c (8 * q + s) y := by
  have key := Pipeline.accAt_add_apply (fun n h => Value.scAt0_3 m c n h (VS0_3.read (Elt Ideal) VS0_3.junk)) (Value.scAt0_3 m c)
    (fun _ => (0 : EReal)) (addend3 m c) (8 * q) 7
    (fun hb i => by
      show Value.scAt0_3 m c (8 * q) hb _ i = _
      rw [reset3 m c (8 * q) hb (by omega) _]
      refine (Payload.pay1_apply (xrow m c ⟨8 * q, hb⟩) (k0_pay6 (F := Ideal)) (wtile4 m c ⟨8 * q, hb⟩) i).trans ?_
      unfold Payload.upd addend3
      rw [dif_pos hb, Payload.pay6_apply])
    (fun n hb acc i h1 h2 => by
      rw [step3 m c n hb (by omega) acc]
      refine (Payload.pay1_apply (xrow m c ⟨n, hb⟩) acc (wtile4 m c ⟨n, hb⟩) i).trans ?_
      unfold Payload.upd addend3
      rw [dif_pos hb])
    7 le_rfl hq y
  rw [key, zero_add]

/-- So after a point that ends a reduction the running sum, at column y, is that sum. -/
theorem sum3_at (c : Dev nD) (t : Fin cfg0.N) (h7 : t.val % 8 = 7) (y : S1x512.Idx) :
    (outsAt0 m c t.val t.isLt).2.2.2.2 y = ∑ s ∈ Finset.range 8, addend3 m c (8 * (t.val / 8) + s) y := by
  have hN : cfg0.N = 64 := N_0
  have hlt := t.isLt
  have hq : 8 * (t.val / 8) + 7 < cfg0.N := by omega
  rw [Value.soutsAt0_3_eq m c t]
  exact (congrFun (accAt_len _ _ (8 * (t.val / 8)) (t.val % 8) 7 _ hq h7) y).trans (fold3 m c (t.val / 8) hq y)

end Cert.KernelIdeal.Sums

end
-- ==== Proof.KBlocks.lean ====
import proofs.«128584_j66554813218870_1_alg».proof.Proof.Gen.KernelIdeal.Frame.Runs
import Idealize.ShloMosaic.Lib.ValueIdx
import Idealize.ShloMosaic.Lib.Pipeline.Value

/-! # What the region finds in its arrays, and what each window's block holds

The host prefix joins the two row vectors into one row of 8192 and reshapes the four bias vectors to rows; the
region then walks an 8 × 8 grid, point `t` having column block `t / 8` and reduction block `t % 8`. Each
window's block at a point is read here at explicit coordinates of the array it is cut from. -/

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The index maps of the windows, decided once over the 64 grid points. -/
theorem idx_0 : ∀ t : Fin cfg0.N, win0_0.index t 0 = 0 ∧ win0_0.index t 1 = t.val % 8 :=
  (by decide +kernel : ∀ t : Fin grid0.N, win0_0.index t 0 = 0 ∧ win0_0.index t 1 = t.val % 8)

/-- The joined row: the first host operation concatenates the two row vectors along the column axis. -/
theorem V_joined (c : Dev nD) :
    (V m c main_v0 : Vec F S1x8192 .f32)
      = concatenate S1x8192 1 [⟨S1x4096, m ((c : Thread nD τ).loc main_arg1)⟩, ⟨S1x4096, m ((c : Thread nD τ).loc main_arg0)⟩]
          concatenates_S1x4096_S1x4096_S1x8192_d1 := by
  dsimp only [Gen.V, Gen.hostOps0]; after_results

/-- Window 0: the block at point `t` is columns `1024 (t % 8) …` of the joined row. -/
theorem blk_joined (c : Dev nD) (t : Fin cfg0.N) (kk : Fin 1024) (h : 1024 * (t.val % 8) + kk.val < 8192) :
    (iblk m c 0 t : Vec F S1x1024 .f32) (ix2 (0 : Fin 1) kk)
      = (V m c main_v0 : Vec F S1x8192 .f32) (ix2 (0 : Fin 1) ⟨1024 * (t.val % 8) + kk.val, h⟩) := by
  have hi := idx_0 t
  unfold iblk
  rw [View.read_apply]
  show V m c main_v0 _ = _
  congr 1
  funext a
  apply Fin.ext
  match a with
  | ⟨0, _⟩ => show win0_0.index t 0 * 1 + 1 * 0 = 0; rw [hi.1]
  | ⟨1, _⟩ => show win0_0.index t 1 * 1024 + 1 * kk.val = 1024 * (t.val % 8) + kk.val; rw [hi.2]; omega

theorem idx_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Weight window 1: the block at point `t` is rows `1024 (t % 8) …`, columns `512 (t / 8) …` of its array. -/
theorem blk_W1 (c : Dev nD) (t : Fin cfg0.N) (kk : Fin 1024) (x : Fin 512)
    (h1 : 1024 * (t.val % 8) + kk.val < 8192) (h2 : 512 * (t.val / 8) + x.val < 4096) :
    (iblk m c 1 t : Vec F S1024x512 .f32) (ix2 kk x)
      = m ((c : Thread nD τ).loc main_arg3) (ix2 ⟨1024 * (t.val % 8) + kk.val, h1⟩ ⟨512 * (t.val / 8) + x.val, h2⟩) := by
  have hi := idx_1 t
  unfold iblk
  rw [View.read_apply]
  show V m c main_arg3 _ = _
  rw [V_main_arg3]
  congr 1
  funext a
  apply Fin.ext
  match a with
  | ⟨0, _⟩ => show win0_1.index t 0 * 1024 + 1 * kk.val = 1024 * (t.val % 8) + kk.val; rw [hi.1]; omega
  | ⟨1, _⟩ => show win0_1.index t 1 * 512 + 1 * x.val = 512 * (t.val / 8) + x.val; rw [hi.2]; omega

theorem idx_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Weight window 2: the block at point `t` is rows `1024 (t % 8) …`, columns `512 (t / 8) …` of its array. -/
theorem blk_W2 (c : Dev nD) (t : Fin cfg0.N) (kk : Fin 1024) (x : Fin 512)
    (h1 : 1024 * (t.val % 8) + kk.val < 8192) (h2 : 512 * (t.val / 8) + x.val < 4096) :
    (iblk m c 2 t : Vec F S1024x512 .f32) (ix2 kk x)
      = m ((c : Thread nD τ).loc main_arg5) (ix2 ⟨1024 * (t.val % 8) + kk.val, h1⟩ ⟨512 * (t.val / 8) + x.val, h2⟩) := by
  have hi := idx_2 t
  unfold iblk
  rw [View.read_apply]
  show V m c main_arg5 _ = _
  rw [V_main_arg5]
  congr 1
  funext a
  apply Fin.ext
  match a with
  | ⟨0, _⟩ => show win0_2.index t 0 * 1024 + 1 * kk.val = 1024 * (t.val % 8) + kk.val; rw [hi.1]; omega
  | ⟨1, _⟩ => show win0_2.index t 1 * 512 + 1 * x.val = 512 * (t.val / 8) + x.val; rw [hi.2]; omega

theorem idx_3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

/-- Weight window 3: the block at point `t` is rows `1024 (t % 8) …`, columns `512 (t / 8) …` of its array. -/
theorem blk_W3 (c : Dev nD) (t : Fin cfg0.N) (kk : Fin 1024) (x : Fin 512)
    (h1 : 1024 * (t.val % 8) + kk.val < 8192) (h2 : 512 * (t.val / 8) + x.val < 4096) :
    (iblk m c 3 t : Vec F S1024x512 .f32) (ix2 kk x)
      = m ((c : Thread nD τ).loc main_arg7) (ix2 ⟨1024 * (t.val % 8) + kk.val, h1⟩ ⟨512 * (t.val / 8) + x.val, h2⟩) := by
  have hi := idx_3 t
  unfold iblk
  rw [View.read_apply]
  show V m c main_arg7 _ = _
  rw [V_main_arg7]
  congr 1
  funext a
  apply Fin.ext
  match a with
  | ⟨0, _⟩ => show win0_3.index t 0 * 1024 + 1 * kk.val = 1024 * (t.val % 8) + kk.val; rw [hi.1]; omega
  | ⟨1, _⟩ => show win0_3.index t 1 * 512 + 1 * x.val = 512 * (t.val / 8) + x.val; rw [hi.2]; omega

theorem idx_4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)

/-- Weight window 4: the block at point `t` is rows `1024 (t % 8) …`, columns `512 (t / 8) …` of its array. -/
theorem blk_W4 (c : Dev nD) (t : Fin cfg0.N) (kk : Fin 1024) (x : Fin 512)
    (h1 : 1024 * (t.val % 8) + kk.val < 8192) (h2 : 512 * (t.val / 8) + x.val < 4096) :
    (iblk m c 4 t : Vec F S1024x512 .f32) (ix2 kk x)
      = m ((c : Thread nD τ).loc main_arg9) (ix2 ⟨1024 * (t.val % 8) + kk.val, h1⟩ ⟨512 * (t.val / 8) + x.val, h2⟩) := by
  have hi := idx_4 t
  unfold iblk
  rw [View.read_apply]
  show V m c main_arg9 _ = _
  rw [V_main_arg9]
  congr 1
  funext a
  apply Fin.ext
  match a with
  | ⟨0, _⟩ => show win0_4.index t 0 * 1024 + 1 * kk.val = 1024 * (t.val % 8) + kk.val; rw [hi.1]; omega
  | ⟨1, _⟩ => show win0_4.index t 1 * 512 + 1 * x.val = 512 * (t.val / 8) + x.val; rw [hi.2]; omega

/-- Bias 1, reshaped to a row, holds the bias vector's entries in order. -/
theorem V_bias1 (c : Dev nD) (n : Fin 4096) :
    (V m c main_v1 : Vec F S1x4096 .f32) (ix2 (0 : Fin 1) n) = m ((c : Thread nD τ).loc main_arg4) (ix1 n) := by
  have e : (V m c main_v1 : S1x4096.Idx → Elt F .f32)
      = shapeCast S1x4096 (m ((c : Thread nD τ).loc main_arg4) : S4096.Idx → Elt F .f32) shapeCasts_S4096_S1x4096 := by
    dsimp only [Gen.V, Gen.hostOps0]; after_results; rfl
  rw [e]
  exact shapeCast_apply _ _ (ix2 (0 : Fin 1) n) (ix1 n) (by
    rw [Shape.rowMajor_val_two, Shape.rowMajor_val_one]; show n.val = 0 * 4096 + n.val; omega)

theorem idx_5 : ∀ t : Fin cfg0.N, win0_5.index t 0 = 0 ∧ win0_5.index t 1 = t.val / 8 :=
  (by decide +kernel : ∀ t : Fin grid0.N, win0_5.index t 0 = 0 ∧ win0_5.index t 1 = t.val / 8)

/-- Bias window 5: the block at point `t` is entries `512 (t / 8) …` of the bias vector. -/
theorem blk_b5 (c : Dev nD) (t : Fin cfg0.N) (x : Fin 512) (h2 : 512 * (t.val / 8) + x.val < 4096) :
    (iblk m c 5 t : Vec F S1x512 .f32) (ix2 (0 : Fin 1) x)
      = m ((c : Thread nD τ).loc main_arg4) (ix1 ⟨512 * (t.val / 8) + x.val, h2⟩) := by
  have hi := idx_5 t
  rw [← V_bias1 m c ⟨512 * (t.val / 8) + x.val, h2⟩]
  unfold iblk
  rw [View.read_apply]
  show V m c main_v1 _ = _
  congr 1
  funext a
  apply Fin.ext
  match a with
  | ⟨0, _⟩ => show win0_5.index t 0 * 1 + 1 * 0 = 0; rw [hi.1]
  | ⟨1, _⟩ => show win0_5.index t 1 * 512 + 1 * x.val = 512 * (t.val / 8) + x.val; rw [hi.2]; omega

/-- Bias 2, reshaped to a row, holds the bias vector's entries in order. -/
theorem V_bias2 (c : Dev nD) (n : Fin 4096) :
    (V m c main_v2 : Vec F S1x4096 .f32) (ix2 (0 : Fin 1) n) = m ((c : Thread nD τ).loc main_arg6) (ix1 n) := by
  have e : (V m c main_v2 : S1x4096.Idx → Elt F .f32)
      = shapeCast S1x4096 (m ((c : Thread nD τ).loc main_arg6) : S4096.Idx → Elt F .f32) shapeCasts_S4096_S1x4096 := by
    dsimp only [Gen.V, Gen.hostOps0]; after_results; rfl
  rw [e]
  exact shapeCast_apply _ _ (ix2 (0 : Fin 1) n) (ix1 n) (by
    rw [Shape.rowMajor_val_two, Shape.rowMajor_val_one]; show n.val = 0 * 4096 + n.val; omega)

theorem idx_6 : ∀ t : Fin cfg0.N, win0_6.index t 0 = 0 ∧ win0_6.index t 1 = t.val / 8 :=
  (by decide +kernel : ∀ t : Fin grid0.N, win0_6.index t 0 = 0 ∧ win0_6.index t 1 = t.val / 8)

/-- Bias window 6: the block at point `t` is entries `512 (t / 8) …` of the bias vector. -/
theorem blk_b6 (c : Dev nD) (t : Fin cfg0.N) (x : Fin 512) (h2 : 512 * (t.val / 8) + x.val < 4096) :
    (iblk m c 6 t : Vec F S1x512 .f32) (ix2 (0 : Fin 1) x)
      = m ((c : Thread nD τ).loc main_arg6) (ix1 ⟨512 * (t.val / 8) + x.val, h2⟩) := by
  have hi := idx_6 t
  rw [← V_bias2 m c ⟨512 * (t.val / 8) + x.val, h2⟩]
  unfold iblk
  rw [View.read_apply]
  show V m c main_v2 _ = _
  congr 1
  funext a
  apply Fin.ext
  match a with
  | ⟨0, _⟩ => show win0_6.index t 0 * 1 + 1 * 0 = 0; rw [hi.1]
  | ⟨1, _⟩ => show win0_6.index t 1 * 512 + 1 * x.val = 512 * (t.val / 8) + x.val; rw [hi.2]; omega

/-- Bias 3, reshaped to a row, holds the bias vector's entries in order. -/
theorem V_bias3 (c : Dev nD) (n : Fin 4096) :
    (V m c main_v3 : Vec F S1x4096 .f32) (ix2 (0 : Fin 1) n) = m ((c : Thread nD τ).loc main_arg8) (ix1 n) := by
  have e : (V m c main_v3 : S1x4096.Idx → Elt F .f32)
      = shapeCast S1x4096 (m ((c : Thread nD τ).loc main_arg8) : S4096.Idx → Elt F .f32) shapeCasts_S4096_S1x4096 := by
    dsimp only [Gen.V, Gen.hostOps0]; after_results; rfl
  rw [e]
  exact shapeCast_apply _ _ (ix2 (0 : Fin 1) n) (ix1 n) (by
    rw [Shape.rowMajor_val_two, Shape.rowMajor_val_one]; show n.val = 0 * 4096 + n.val; omega)

theorem idx_7 : ∀ t : Fin cfg0.N, win0_7.index t 0 = 0 ∧ win0_7.index t 1 = t.val / 8 :=
  (by decide +kernel : ∀ t : Fin grid0.N, win0_7.index t 0 = 0 ∧ win0_7.index t 1 = t.val / 8)

/-- Bias window 7: the block at point `t` is entries `512 (t / 8) …` of the bias vector. -/
theorem blk_b7 (c : Dev nD) (t : Fin cfg0.N) (x : Fin 512) (h2 : 512 * (t.val / 8) + x.val < 4096) :
    (iblk m c 7 t : Vec F S1x512 .f32) (ix2 (0 : Fin 1) x)
      = m ((c : Thread nD τ).loc main_arg8) (ix1 ⟨512 * (t.val / 8) + x.val, h2⟩) := by
  have hi := idx_7 t
  rw [← V_bias3 m c ⟨512 * (t.val / 8) + x.val, h2⟩]
  unfold iblk
  rw [View.read_apply]
  show V m c main_v3 _ = _
  congr 1
  funext a
  apply Fin.ext
  match a with
  | ⟨0, _⟩ => show win0_7.index t 0 * 1 + 1 * 0 = 0; rw [hi.1]
  | ⟨1, _⟩ => show win0_7.index t 1 * 512 + 1 * x.val = 512 * (t.val / 8) + x.val; rw [hi.2]; omega

/-- Bias 4, reshaped to a row, holds the bias vector's entries in order. -/
theorem V_bias4 (c : Dev nD) (n : Fin 4096) :
    (V m c main_v4 : Vec F S1x4096 .f32) (ix2 (0 : Fin 1) n) = m ((c : Thread nD τ).loc main_arg10) (ix1 n) := by
  have e : (V m c main_v4 : S1x4096.Idx → Elt F .f32)
      = shapeCast S1x4096 (m ((c : Thread nD τ).loc main_arg10) : S4096.Idx → Elt F .f32) shapeCasts_S4096_S1x4096 := by
    dsimp only [Gen.V, Gen.hostOps0]; after_results; rfl
  rw [e]
  exact shapeCast_apply _ _ (ix2 (0 : Fin 1) n) (ix1 n) (by
    rw [Shape.rowMajor_val_two, Shape.rowMajor_val_one]; show n.val = 0 * 4096 + n.val; omega)

theorem idx_8 : ∀ t : Fin cfg0.N, win0_8.index t 0 = 0 ∧ win0_8.index t 1 = t.val / 8 :=
  (by decide +kernel : ∀ t : Fin grid0.N, win0_8.index t 0 = 0 ∧ win0_8.index t 1 = t.val / 8)

/-- Bias window 8: the block at point `t` is entries `512 (t / 8) …` of the bias vector. -/
theorem blk_b8 (c : Dev nD) (t : Fin cfg0.N) (x : Fin 512) (h2 : 512 * (t.val / 8) + x.val < 4096) :
    (iblk m c 8 t : Vec F S1x512 .f32) (ix2 (0 : Fin 1) x)
      = m ((c : Thread nD τ).loc main_arg10) (ix1 ⟨512 * (t.val / 8) + x.val, h2⟩) := by
  have hi := idx_8 t
  rw [← V_bias4 m c ⟨512 * (t.val / 8) + x.val, h2⟩]
  unfold iblk
  rw [View.read_apply]
  show V m c main_v4 _ = _
  congr 1
  funext a
  apply Fin.ext
  match a with
  | ⟨0, _⟩ => show win0_8.index t 0 * 1 + 1 * 0 = 0; rw [hi.1]
  | ⟨1, _⟩ => show win0_8.index t 1 * 512 + 1 * x.val = 512 * (t.val / 8) + x.val; rw [hi.2]; omega

theorem idx_9 : ∀ t : Fin cfg0.N, win0_9.index t 0 = 0 ∧ win0_9.index t 1 = t.val / 8 :=
  (by decide +kernel : ∀ t : Fin grid0.N, win0_9.index t 0 = 0 ∧ win0_9.index t 1 = t.val / 8)

/-- Window 9: the block at point `t` is columns `512 (t / 8) …` of the carried row. -/
theorem blk_c0 (c : Dev nD) (t : Fin cfg0.N) (x : Fin 512) (h2 : 512 * (t.val / 8) + x.val < 4096) :
    (iblk m c 9 t : Vec F S1x512 .f32) (ix2 (0 : Fin 1) x)
      = m ((c : Thread nD τ).loc main_arg2) (ix2 (0 : Fin 1) ⟨512 * (t.val / 8) + x.val, h2⟩) := by
  have hi := idx_9 t
  unfold iblk
  rw [View.read_apply]
  show V m c main_arg2 _ = _
  rw [V_main_arg2]
  congr 1
  funext a
  apply Fin.ext
  match a with
  | ⟨0, _⟩ => show win0_9.index t 0 * 1 + 1 * 0 = 0; rw [hi.1]
  | ⟨1, _⟩ => show win0_9.index t 1 * 512 + 1 * x.val = 512 * (t.val / 8) + x.val; rw [hi.2]; omega

/-! ## The output window -/

theorem idx_10 : ∀ t : Fin cfg0.N, win0_10.index t 0 = 0 ∧ win0_10.index t 1 = t.val / 8 :=
  (by decide +kernel : ∀ t : Fin grid0.N, win0_10.index t 0 = 0 ∧ win0_10.index t 1 = t.val / 8)

/-- The output block is written back exactly at the last reduction step of each column block. -/
theorem flush_iff (t : Fin cfg0.N) : (cfg0.win 10).flush t = true ↔ t.val % 8 = 7 :=
  (by decide +kernel : ∀ t : Fin grid0.N, (cfg0.win 10).flush t = true ↔ t.val % 8 = 7) t

/-- Every entry of the output row lies in the block written back at the last reduction step of its column block. -/
theorem cover_out (i : S1x4096.Idx) :
    ∃ t : Fin cfg0.N, (cfg0.win 10).flush t = true ∧ t.val = 8 * ((i 1).val / 512) + 7 ∧ i ∈ ((cfg0.win 10).blk t).view.set := by
  have h0 : (i 0 : Nat) < 1 := (i 0).isLt
  have h1 : (i 1 : Nat) < 4096 := (i 1).isLt
  have ht : 8 * ((i 1).val / 512) + 7 < cfg0.N := by
    show _ < grid0.N
    rw [N_0]; omega
  obtain ⟨t, htv⟩ : ∃ t : Fin cfg0.N, t.val = 8 * ((i 1).val / 512) + 7 := ⟨⟨_, ht⟩, rfl⟩
  refine ⟨t, (flush_iff t).2 (by omega), htv, ?_⟩
  have hi := idx_10 t
  show i ∈ ((View.whole main_v5).slice (win0_10.rect t)).set
  rw [View.set_slice_whole, Rect.mem_set_unit]
  intro a
  match a with
  | ⟨0, _⟩ =>
    show win0_10.index t 0 * 1 ≤ (i 0 : Nat) ∧ (i 0 : Nat) < win0_10.index t 0 * 1 + 1
    rw [hi.1]; omega
  | ⟨1, _⟩ =>
    show win0_10.index t 1 * 512 ≤ (i 1 : Nat) ∧ (i 1 : Nat) < win0_10.index t 1 * 512 + 512
    rw [hi.2]; omega

/-- A column of the output block at point `t` is a column of the output row. -/
theorem out_col_lt (t : Fin cfg0.N) (x : Fin 512) : 512 * (t.val / 8) + x.val < 4096 := by
  have ht : t.val < 64 := lt_of_lt_of_eq t.isLt N_0
  omega

/-- Where the output block at point `t` sits in the output row: local entry `y` is row 0, column
    `512 (t / 8) + y 1`. -/
theorem out_emb (t : Fin cfg0.N) (y : ((cfg0.win 10).xblock (cfg0.grid.coords t)).Idx) :
    ((cfg0.win 10).blk t).view.emb y
      = ix2 (0 : Fin 1) ⟨512 * (t.val / 8) + (y ⟨1, Nat.one_lt_two⟩).val, out_col_lt t (y ⟨1, Nat.one_lt_two⟩)⟩ := by
  have hi := idx_10 t
  have hy0 : (y ⟨0, Nat.zero_lt_two⟩).val < 1 := (y ⟨0, Nat.zero_lt_two⟩).isLt
  funext a
  apply Fin.ext
  match a with
  | ⟨0, _⟩ => show win0_10.index t 0 * 1 + 1 * (y ⟨0, Nat.zero_lt_two⟩).val = 0; rw [hi.1]; omega
  | ⟨1, _⟩ =>
    show win0_10.index t 1 * 512 + 1 * (y ⟨1, Nat.one_lt_two⟩).val = 512 * (t.val / 8) + (y ⟨1, Nat.one_lt_two⟩).val
    rw [hi.2]; omega

/-- Reading the output block at point `t` off contents `G` of the output row. -/
theorem out_blk_read (G : S1x4096.Idx → Elt F .f32) (t : Fin cfg0.N) (y : ((cfg0.win 10).xblock (cfg0.grid.coords t)).Idx) :
    ((cfg0.win 10).blk t).view.read (Elt F) G y
      = G (ix2 (0 : Fin 1) ⟨512 * (t.val / 8) + (y ⟨1, Nat.one_lt_two⟩).val, out_col_lt t (y ⟨1, Nat.one_lt_two⟩)⟩) := by
  rw [View.read_apply, out_emb]; rfl

/-- The same at explicit coordinates of the block. -/
theorem out_blk_read_ix (G : S1x4096.Idx → Elt F .f32) (t : Fin cfg0.N) (x : Fin 512) :
    ((cfg0.win 10).blk t).view.read (Elt F) G (ix2 (0 : Fin 1) x)
      = G (ix2 (0 : Fin 1) ⟨512 * (t.val / 8) + x.val, out_col_lt t x⟩) :=
  out_blk_read G t (ix2 (0 : Fin 1) x)

end Cert.KernelIdeal.Blocks

end
-- ==== Proof.Spec.lean ====
/-
  The LSTM cell as one function of its argument arrays, index by index, over the extended reals.

  With cc = [h0, x] the joined row of length 8192, a gate's pre-activation at output column n is the inner product
  of cc with column n of the gate's weight matrix, plus the gate's bias at n. The new hidden state at column n is
      sigma(pre_o) * tanh(c0 * sigma(pre_f) + tanh(pre_c) * sigma(pre_i)),
  sigma the logistic function. Also here: the word 0x3F800000 is the real number one, and a sum over 8192 terms is
  the sum of its eight consecutive stretches of 1024 terms.
-/
import Idealize.ShloMosaic.PureOps.Ideal
import Idealize.ShloMosaic.Lib.ValueIdx
import Mathlib.Algebra.BigOperators.Fin
import Mathlib.Algebra.BigOperators.Intervals

noncomputable section

open scoped BigOperators

namespace Cert.Lstm

open Idealize.ShloMosaic Idealize.ShloMosaic.ValueIdx

/-- A row vector of length n, a weight matrix, a bias vector: extended reals indexed by the literal shapes. -/
abbrev Row (n : Nat) : Type := (⟨2, ![1, n]⟩ : Shape).Idx → EReal
abbrev Mat : Type := (⟨2, ![8192, 4096]⟩ : Shape).Idx → EReal
abbrev Bias : Type := (⟨1, ![4096]⟩ : Shape).Idx → EReal

/-- A gate's pre-activation at output column n: the inner product of the joined row with column n of the weights,
    plus the bias at n. -/
def pre (cc : Row 8192) (W : Mat) (b : Bias) (n : Fin 4096) : EReal :=
  (∑ k : Fin 8192, cc (ix2 (0 : Fin 1) k) * W (ix2 k n)) + b (ix1 n)

/-- The new hidden state, column by column. -/
def cell (cc : Row 8192) (Wf : Mat) (bf : Bias) (Wi : Mat) (bi : Bias) (Wc : Mat) (bc : Bias) (Wo : Mat) (bo : Bias)
    (c0 : Row 4096) : Row 4096 := fun i =>
  Ideal.logistic (pre cc Wo bo (i 1)) *
    Ideal.tanh (c0 i * Ideal.logistic (pre cc Wf bf (i 1)) + Ideal.tanh (pre cc Wc bc (i 1)) * Ideal.logistic (pre cc Wi bi (i 1)))

/-- The float word 0x3F800000 is the number one. -/
theorem ofBits_one : Ideal.ofBits .f32 0x3F800000#32 = (1 : EReal) := by
  simp [Ideal.ofBits, Ideal.ieee, -EReal.coe_mul]; norm_num

/-- A sum over b * S consecutive naturals is the sum over its S stretches of length b. -/
theorem sum_range_blocks {M : Type*} [AddCommMonoid M] (f : ℕ → M) (b : ℕ) :
    ∀ S : ℕ, ∑ x ∈ Finset.range (b * S), f x = ∑ s ∈ Finset.range S, ∑ j ∈ Finset.range b, f (b * s + j)
  | 0 => by simp
  | S + 1 => by
    rw [Nat.mul_succ, Finset.sum_range_add, sum_range_blocks f b S, Finset.sum_range_succ]

/-- The sum of 8192 terms, stretch by stretch: eight stretches of 1024. -/
theorem sum_8192 {M : Type*} [AddCommMonoid M] (f : ℕ → M) :
    ∑ k : Fin 8192, f k.val = ∑ s ∈ Finset.range 8, ∑ j : Fin 1024, f (1024 * s + j.val) := by
  rw [Fin.sum_univ_eq_sum_range f 8192, show (8192 : ℕ) = 1024 * 8 from rfl, sum_range_blocks f 1024 8]
  refine Finset.sum_congr rfl fun s _ => ?_
  exact (Fin.sum_univ_eq_sum_range (fun j => f (1024 * s + j)) 1024).symm

end Cert.Lstm

end
-- ==== Proof.Cols.lean ====
/-
  From blocks to columns of the whole arrays.

  At grid point (n, k) the row window holds positions 1024 k .. 1024 k + 1023 of the joined row and a weight window
  holds rows 1024 k .. 1024 k + 1023, columns 512 n .. 512 n + 511 of its matrix. So the eight addends of a reduction are
  the eight consecutive stretches of the 8192-term inner product of the joined row with one column of the matrix, and a
  running sum after the reduction's last point is that inner product; with the bias block's entry added it is the gate's
  pre-activation at the column.
-/
import proofs.«128584_j66554813218870_1_alg».proof.Proof.Sums
import proofs.«128584_j66554813218870_1_alg».proof.Proof.KBlocks
import proofs.«128584_j66554813218870_1_alg».proof.Proof.Spec

set_option maxRecDepth 16384

noncomputable section

open scoped BigOperators
open Idealize.ShloMosaic Idealize.ShloMosaic.TcCoe Idealize.SL.Sem Idealize.ShloMosaic.ValueIdx

namespace Cert.KernelIdeal.Cols

open Cert.KernelIdeal Cert.KernelIdeal.Gen Cert.KernelIdeal.Sums

variable (m : (ℓ : Loc nD τ sig) → Buf (Elt Ideal) ℓ)

/-- The arrays the region finds, at the specification's literal types: the joined row, the four weight matrices, the four
    bias vectors, the cell state. -/
abbrev joined (c : Dev nD) : Cert.Lstm.Row 8192 := V m c main_v0
abbrev wF (c : Dev nD) : Cert.Lstm.Mat := m ((c : Thread nD τ).loc main_arg3)
abbrev wI (c : Dev nD) : Cert.Lstm.Mat := m ((c : Thread nD τ).loc main_arg5)
abbrev wC (c : Dev nD) : Cert.Lstm.Mat := m ((c : Thread nD τ).loc main_arg7)
abbrev wO (c : Dev nD) : Cert.Lstm.Mat := m ((c : Thread nD τ).loc main_arg9)
abbrev bF (c : Dev nD) : Cert.Lstm.Bias := m ((c : Thread nD τ).loc main_arg4)
abbrev bI (c : Dev nD) : Cert.Lstm.Bias := m ((c : Thread nD τ).loc main_arg6)
abbrev bC (c : Dev nD) : Cert.Lstm.Bias := m ((c : Thread nD τ).loc main_arg8)
abbrev bO (c : Dev nD) : Cert.Lstm.Bias := m ((c : Thread nD τ).loc main_arg10)
abbrev cell0 (c : Dev nD) : Cert.Lstm.Row 4096 := m ((c : Thread nD τ).loc main_arg2)

/-- Term k of the inner product of the joined row with column n of a weight matrix (zero past the row's end). -/
def term (cc : Cert.Lstm.Row 8192) (W : Cert.Lstm.Mat) (n : Fin 4096) (k : ℕ) : EReal :=
  if h : k < 8192 then cc (ix2 (0 : Fin 1) ⟨k, h⟩) * W (ix2 ⟨k, h⟩ n) else 0

/-- The eight stretches of 1024 terms make up the whole inner product. -/
theorem sum_term (cc : Cert.Lstm.Row 8192) (W : Cert.Lstm.Mat) (n : Fin 4096) :
    ∑ s ∈ Finset.range 8, ∑ kk : Fin 1024, term cc W n (1024 * s + kk.val) = ∑ k : Fin 8192, cc (ix2 (0 : Fin 1) k) * W (ix2 k n) := by
  rw [← Cert.Lstm.sum_8192 (term cc W n)]
  refine Finset.sum_congr rfl fun k _ => ?_
  unfold term
  rw [dif_pos k.isLt]

/-- A point's addend is stretch s of the inner product, when the point's blocks are that stretch of the row and of the
    column. -/
theorem stretch (xr : Vec Ideal S1x1024 .f32) (wt : Vec Ideal S1024x512 .f32) (cc : Cert.Lstm.Row 8192) (W : Cert.Lstm.Mat)
    (s : ℕ) (hs : s < 8) (y : S1x512.Idx) (n : Fin 4096)
    (hx : ∀ (kk : Fin 1024) (h : 1024 * s + kk.val < 8192), xr (ix2 (0 : Fin 1) kk) = cc (ix2 (0 : Fin 1) ⟨1024 * s + kk.val, h⟩))
    (hw : ∀ (kk : Fin 1024) (h : 1024 * s + kk.val < 8192), wt (ix2 kk (y 1)) = W (ix2 ⟨1024 * s + kk.val, h⟩ n)) :
    ∑ kk : Fin 1024, xr (ix2 (0 : Fin 1) kk) * wt (ix2 kk (y 1)) = ∑ kk : Fin 1024, term cc W n (1024 * s + kk.val) := by
  refine Finset.sum_congr rfl fun kk _ => ?_
  have hk : 1024 * s + kk.val < 8192 := by have := kk.isLt; omega
  unfold term
  rw [dif_pos hk, hx kk hk, hw kk hk]

/-- Running sum 0 after a point that ends a reduction, at column y of the block: the whole inner product of the joined
    row with column n of the weights, n the column's place in the array. -/
theorem sum0_col (c : Dev nD) (t : Fin cfg0.N) (h7 : t.val % 8 = 7) (y : S1x512.Idx) (n : Fin 4096)
    (hn : n.val = 512 * (t.val / 8) + (y 1).val) :
    (outsAt0 m c t.val t.isLt).2.1 y
      = ∑ k : Fin 8192, joined m c (ix2 (0 : Fin 1) k) * wF m c (ix2 k n) := by
  have hN : cfg0.N = 64 := N_0
  have hlt := t.isLt
  have hy : (y 1).val < 512 := (y 1).isLt
  rw [sum0_at m c t h7 y, ← sum_term]
  refine Finset.sum_congr rfl fun s hs => ?_
  have hs8 : s < 8 := Finset.mem_range.mp hs
  have hb : 8 * (t.val / 8) + s < cfg0.N := by omega
  unfold addend0
  rw [dif_pos hb]
  refine stretch (xrow m c ⟨8 * (t.val / 8) + s, hb⟩) (wtile1 m c ⟨8 * (t.val / 8) + s, hb⟩) (joined m c) (wF m c) s hs8 y n ?_ ?_
  · intro kk h
    refine (Blocks.blk_joined m c ⟨8 * (t.val / 8) + s, hb⟩ kk (by show 1024 * ((8 * (t.val / 8) + s) % 8) + kk.val < 8192; omega)).trans ?_
    congr 2
    apply Fin.ext
    show 1024 * ((8 * (t.val / 8) + s) % 8) + kk.val = 1024 * s + kk.val
    omega
  · intro kk h
    refine (Blocks.blk_W1 m c ⟨8 * (t.val / 8) + s, hb⟩ kk (y 1) (by show 1024 * ((8 * (t.val / 8) + s) % 8) + kk.val < 8192; omega) (by show 512 * ((8 * (t.val / 8) + s) / 8) + (y 1).val < 4096; omega)).trans ?_
    congr 2
    · apply Fin.ext
      show 1024 * ((8 * (t.val / 8) + s) % 8) + kk.val = 1024 * s + kk.val
      omega
    · apply Fin.ext
      show 512 * ((8 * (t.val / 8) + s) / 8) + (y 1).val = n.val
      omega

/-- Running sum 1 after a point that ends a reduction, at column y of the block: the whole inner product of the joined
    row with column n of the weights, n the column's place in the array. -/
theorem sum1_col (c : Dev nD) (t : Fin cfg0.N) (h7 : t.val % 8 = 7) (y : S1x512.Idx) (n : Fin 4096)
    (hn : n.val = 512 * (t.val / 8) + (y 1).val) :
    (outsAt0 m c t.val t.isLt).2.2.1 y
      = ∑ k : Fin 8192, joined m c (ix2 (0 : Fin 1) k) * wI m c (ix2 k n) := by
  have hN : cfg0.N = 64 := N_0
  have hlt := t.isLt
  have hy : (y 1).val < 512 := (y 1).isLt
  rw [sum1_at m c t h7 y, ← sum_term]
  refine Finset.sum_congr rfl fun s hs => ?_
  have hs8 : s < 8 := Finset.mem_range.mp hs
  have hb : 8 * (t.val / 8) + s < cfg0.N := by omega
  unfold addend1
  rw [dif_pos hb]
  refine stretch (xrow m c ⟨8 * (t.val / 8) + s, hb⟩) (wtile2 m c ⟨8 * (t.val / 8) + s, hb⟩) (joined m c) (wI m c) s hs8 y n ?_ ?_
  · intro kk h
    refine (Blocks.blk_joined m c ⟨8 * (t.val / 8) + s, hb⟩ kk (by show 1024 * ((8 * (t.val / 8) + s) % 8) + kk.val < 8192; omega)).trans ?_
    congr 2
    apply Fin.ext
    show 1024 * ((8 * (t.val / 8) + s) % 8) + kk.val = 1024 * s + kk.val
    omega
  · intro kk h
    refine (Blocks.blk_W2 m c ⟨8 * (t.val / 8) + s, hb⟩ kk (y 1) (by show 1024 * ((8 * (t.val / 8) + s) % 8) + kk.val < 8192; omega) (by show 512 * ((8 * (t.val / 8) + s) / 8) + (y 1).val < 4096; omega)).trans ?_
    congr 2
    · apply Fin.ext
      show 1024 * ((8 * (t.val / 8) + s) % 8) + kk.val = 1024 * s + kk.val
      omega
    · apply Fin.ext
      show 512 * ((8 * (t.val / 8) + s) / 8) + (y 1).val = n.val
      omega

/-- Running sum 2 after a point that ends a reduction, at column y of the block: the whole inner product of the joined
    row with column n of the weights, n the column's place in the array. -/
theorem sum2_col (c : Dev nD) (t : Fin cfg0.N) (h7 : t.val % 8 = 7) (y : S1x512.Idx) (n : Fin 4096)
    (hn : n.val = 512 * (t.val / 8) + (y 1).val) :
    (outsAt0 m c t.val t.isLt).2.2.2.1 y
      = ∑ k : Fin 8192, joined m c (ix2 (0 : Fin 1) k) * wC m c (ix2 k n) := by
  have hN : cfg0.N = 64 := N_0
  have hlt := t.isLt
  have hy : (y 1).val < 512 := (y 1).isLt
  rw [sum2_at m c t h7 y, ← sum_term]
  refine Finset.sum_congr rfl fun s hs => ?_
  have hs8 : s < 8 := Finset.mem_range.mp hs
  have hb : 8 * (t.val / 8) + s < cfg0.N := by omega
  unfold addend2
  rw [dif_pos hb]
  refine stretch (xrow m c ⟨8 * (t.val / 8) + s, hb⟩) (wtile3 m c ⟨8 * (t.val / 8) + s, hb⟩) (joined m c) (wC m c) s hs8 y n ?_ ?_
  · intro kk h
    refine (Blocks.blk_joined m c ⟨8 * (t.val / 8) + s, hb⟩ kk (by show 1024 * ((8 * (t.val / 8) + s) % 8) + kk.val < 8192; omega)).trans ?_
    congr 2
    apply Fin.ext
    show 1024 * ((8 * (t.val / 8) + s) % 8) + kk.val = 1024 * s + kk.val
    omega
  · intro kk h
    refine (Blocks.blk_W3 m c ⟨8 * (t.val / 8) + s, hb⟩ kk (y 1) (by show 1024 * ((8 * (t.val / 8) + s) % 8) + kk.val < 8192; omega) (by show 512 * ((8 * (t.val / 8) + s) / 8) + (y 1).val < 4096; omega)).trans ?_
    congr 2
    · apply Fin.ext
      show 1024 * ((8 * (t.val / 8) + s) % 8) + kk.val = 1024 * s + kk.val
      omega
    · apply Fin.ext
      show 512 * ((8 * (t.val / 8) + s) / 8) + (y 1).val = n.val
      omega

/-- Running sum 3 after a point that ends a reduction, at column y of the block: the whole inner product of the joined
    row with column n of the weights, n the column's place in the array. -/
theorem sum3_col (c : Dev nD) (t : Fin cfg0.N) (h7 : t.val % 8 = 7) (y : S1x512.Idx) (n : Fin 4096)
    (hn : n.val = 512 * (t.val / 8) + (y 1).val) :
    (outsAt0 m c t.val t.isLt).2.2.2.2 y
      = ∑ k : Fin 8192, joined m c (ix2 (0 : Fin 1) k) * wO m c (ix2 k n) := by
  have hN : cfg0.N = 64 := N_0
  have hlt := t.isLt
  have hy : (y 1).val < 512 := (y 1).isLt
  rw [sum3_at m c t h7 y, ← sum_term]
  refine Finset.sum_congr rfl fun s hs => ?_
  have hs8 : s < 8 := Finset.mem_range.mp hs
  have hb : 8 * (t.val / 8) + s < cfg0.N := by omega
  unfold addend3
  rw [dif_pos hb]
  refine stretch (xrow m c ⟨8 * (t.val / 8) + s, hb⟩) (wtile4 m c ⟨8 * (t.val / 8) + s, hb⟩) (joined m c) (wO m c) s hs8 y n ?_ ?_
  · intro kk h
    refine (Blocks.blk_joined m c ⟨8 * (t.val / 8) + s, hb⟩ kk (by show 1024 * ((8 * (t.val / 8) + s) % 8) + kk.val < 8192; omega)).trans ?_
    congr 2
    apply Fin.ext
    show 1024 * ((8 * (t.val / 8) + s) % 8) + kk.val = 1024 * s + kk.val
    omega
  · intro kk h
    refine (Blocks.blk_W4 m c ⟨8 * (t.val / 8) + s, hb⟩ kk (y 1) (by show 1024 * ((8 * (t.val / 8) + s) % 8) + kk.val < 8192; omega) (by show 512 * ((8 * (t.val / 8) + s) / 8) + (y 1).val < 4096; omega)).trans ?_
    congr 2
    · apply Fin.ext
      show 1024 * ((8 * (t.val / 8) + s) % 8) + kk.val = 1024 * s + kk.val
      omega
    · apply Fin.ext
      show 512 * ((8 * (t.val / 8) + s) / 8) + (y 1).val = n.val
      omega

/-- Running sum 0 plus its bias block, at column x of the block, is the gate's pre-activation at the column's place in
    the array. -/
theorem pre0 (c : Dev nD) (t : Fin cfg0.N) (h7 : t.val % 8 = 7) (x : Fin 512) :
    (outsAt0 m c t.val t.isLt).2.1 (ix2 (0 : Fin 1) x) + bblk5 m c t (ix2 (0 : Fin 1) x)
      = Cert.Lstm.pre (joined m c) (wF m c) (bF m c) ⟨512 * (t.val / 8) + x.val, Blocks.out_col_lt t x⟩ := by
  unfold Cert.Lstm.pre
  rw [sum0_col m c t h7 (ix2 (0 : Fin 1) x) ⟨512 * (t.val / 8) + x.val, Blocks.out_col_lt t x⟩ rfl]
  exact congrArg (_ + ·) (Blocks.blk_b5 m c t x (Blocks.out_col_lt t x))

/-- Running sum 1 plus its bias block, at column x of the block, is the gate's pre-activation at the column's place in
    the array. -/
theorem pre1 (c : Dev nD) (t : Fin cfg0.N) (h7 : t.val % 8 = 7) (x : Fin 512) :
    (outsAt0 m c t.val t.isLt).2.2.1 (ix2 (0 : Fin 1) x) + bblk6 m c t (ix2 (0 : Fin 1) x)
      = Cert.Lstm.pre (joined m c) (wI m c) (bI m c) ⟨512 * (t.val / 8) + x.val, Blocks.out_col_lt t x⟩ := by
  unfold Cert.Lstm.pre
  rw [sum1_col m c t h7 (ix2 (0 : Fin 1) x) ⟨512 * (t.val / 8) + x.val, Blocks.out_col_lt t x⟩ rfl]
  exact congrArg (_ + ·) (Blocks.blk_b6 m c t x (Blocks.out_col_lt t x))

/-- Running sum 2 plus its bias block, at column x of the block, is the gate's pre-activation at the column's place in
    the array. -/
theorem pre2 (c : Dev nD) (t : Fin cfg0.N) (h7 : t.val % 8 = 7) (x : Fin 512) :
    (outsAt0 m c t.val t.isLt).2.2.2.1 (ix2 (0 : Fin 1) x) + bblk7 m c t (ix2 (0 : Fin 1) x)
      = Cert.Lstm.pre (joined m c) (wC m c) (bC m c) ⟨512 * (t.val / 8) + x.val, Blocks.out_col_lt t x⟩ := by
  unfold Cert.Lstm.pre
  rw [sum2_col m c t h7 (ix2 (0 : Fin 1) x) ⟨512 * (t.val / 8) + x.val, Blocks.out_col_lt t x⟩ rfl]
  exact congrArg (_ + ·) (Blocks.blk_b7 m c t x (Blocks.out_col_lt t x))

/-- Running sum 3 plus its bias block, at column x of the block, is the gate's pre-activation at the column's place in
    the array. -/
theorem pre3 (c : Dev nD) (t : Fin cfg0.N) (h7 : t.val % 8 = 7) (x : Fin 512) :
    (outsAt0 m c t.val t.isLt).2.2.2.2 (ix2 (0 : Fin 1) x) + bblk8 m c t (ix2 (0 : Fin 1) x)
      = Cert.Lstm.pre (joined m c) (wO m c) (bO m c) ⟨512 * (t.val / 8) + x.val, Blocks.out_col_lt t x⟩ := by
  unfold Cert.Lstm.pre
  rw [sum3_col m c t h7 (ix2 (0 : Fin 1) x) ⟨512 * (t.val / 8) + x.val, Blocks.out_col_lt t x⟩ rfl]
  exact congrArg (_ + ·) (Blocks.blk_b8 m c t x (Blocks.out_col_lt t x))

end Cert.KernelIdeal.Cols

end
-- ==== Proof.OutBlock.lean ====
import proofs.«128584_j66554813218870_1_alg».proof.Proof.Gen.KernelIdeal.Frame
import proofs.«128584_j66554813218870_1_alg».proof.Proof.Pieces

/-! # The output block at a point that ends a reduction

At such a point the body first updates the four running sums and then forms the output block from the sums it has
just written, the four bias blocks and the cell-state block. So the output block is the closing formula applied to
the four sums as that same point leaves them. -/

set_option maxRecDepth 16384

noncomputable section

namespace Cert.KernelIdeal.OutBlock

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- At a point that ends a reduction, the output block is the closing formula of the four running sums as that
    point leaves them, the bias blocks and the cell-state block. -/
theorem out_C (c : Dev nD) (t : Fin cfg0.N) (h0 : ¬t.val % 8 = 0) (h1 : t.val % 8 = 7) :
    (outsAt0 m c t.val t.isLt).1
      = k0_pay2 (outsAt0 m c t.val t.isLt).2.1 (iblk m c 5 t) (outsAt0 m c t.val t.isLt).2.2.1 (iblk m c 6 t)
          (outsAt0 m c t.val t.isLt).2.2.2.1 (iblk m c 7 t) (outsAt0 m c t.val t.isLt).2.2.2.2 (iblk m c 8 t) (iblk m c 9 t) := by
  rw [outsAt0_C m c t h0 h1]
  dsimp only
  rw [Pieces.oC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1),
    Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1),
    Pieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1),
    Pieces.sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1),
    Pieces.sC3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1)]

end Cert.KernelIdeal.OutBlock

end
-- ==== Proof.KernelValue.lean ====
/-
  The kernel's result array is the cell function of the arrays its region finds.

  At a point that ends a reduction the output block, column x, is the closing formula of the four running sums, the four
  bias entries and the cell-state entry: with each sum-plus-bias the gate's pre-activation at column 512 n + x, that is
  the cell function there. Those are the only points that write the output back, their blocks tile the row, so the array
  ends at the cell function everywhere.
-/
import proofs.«128584_j66554813218870_1_alg».proof.Proof.Cols
import proofs.«128584_j66554813218870_1_alg».proof.Proof.OutBlock

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RefValue

open Cert.KernelIdeal Cert.KernelIdeal.Gen Cert.KernelIdeal.Sums Cert.KernelIdeal.Cols

variable (m : (ℓ : Loc nD τ sig) → Buf (Elt Ideal) ℓ) (ρ : Dev nD → PrngReg)

/-- The cell function of the arrays the region finds. -/
abbrev result (c : Dev nD) : Cert.Lstm.Row 4096 :=
  Cert.Lstm.cell (joined m c) (wF m c) (bF m c) (wI m c) (bI m c) (wC m c) (bC m c) (wO m c) (bO m c) (cell0 m c)

/-- The output block after a point that ends a reduction, at column x: the cell function at column 512 n + x. -/
theorem out_at (c : Dev nD) (t : Fin cfg0.N) (h7 : t.val % 8 = 7) (x : Fin 512) :
    (outsAt0 m c t.val t.isLt).1 (ix2 (0 : Fin 1) x) = result m c (ix2 (0 : Fin 1) ⟨512 * (t.val / 8) + x.val, Blocks.out_col_lt t x⟩) := by
  have h0 : ¬t.val % 8 = 0 := by omega
  rw [OutBlock.out_C m c t h0 h7]
  refine (Payload.pay2_apply (outsAt0 m c t.val t.isLt).2.1 (bblk5 m c t) (outsAt0 m c t.val t.isLt).2.2.1 (bblk6 m c t)
    (outsAt0 m c t.val t.isLt).2.2.2.1 (bblk7 m c t) (outsAt0 m c t.val t.isLt).2.2.2.2 (bblk8 m c t) (cblk m c t) (ix2 (0 : Fin 1) x)).trans ?_
  rw [pre0 m c t h7 x, pre1 m c t h7 x, pre2 m c t h7 x, pre3 m c t h7 x]
  have hc : cblk m c t (ix2 (0 : Fin 1) x) = cell0 m c (ix2 (0 : Fin 1) ⟨512 * (t.val / 8) + x.val, Blocks.out_col_lt t x⟩) :=
    Blocks.blk_c0 m c t x (Blocks.out_col_lt t x)
  rw [hc]
  rfl

/-- An index of a [1, 512] block is its column. -/
theorem idx_col (y : S1x512.Idx) : y = ix2 (0 : Fin 1) (y 1) :=
  funext fun a => match a with
    | ⟨0, _⟩ => Fin.ext (by have h := idx2_lt0 y; show (y 0).val = 0; omega)
    | ⟨1, _⟩ => rfl

/-- What a point that writes the output back writes: its block of the cell function. -/
theorem flushed_eq (c : Dev nD) (t : Fin cfg0.N) (hf : (cfg0.win 10).flush t = true) :
    (dats m 0 c).flushed 10 t = ((cfg0.win 10).blk t).view.read (Elt Ideal) (result m c) := by
  have h7 : t.val % 8 = 7 := (Blocks.flush_iff t).mp hf
  rw [Value.flushed10]
  funext y
  refine Eq.trans ?_ (Blocks.out_blk_read (F := Ideal) (result m c) t y).symm
  show (outsAt0 m c t.val t.isLt).1 y = _
  have hy : (y : S1x512.Idx) = ix2 (0 : Fin 1) (y 1) := idx_col y
  exact (congrArg (outsAt0 m c t.val t.isLt).1 hy).trans (out_at m c t h7 (y 1))

/-- The result array after the run. -/
theorem final (c : Dev nD) : (dats m 0 c).arrAt 10 cfg0.N = result m c :=
  (dats m 0 c).arrAt_eq_of_cover 10 (result m c) (flushed_eq m c) fun i => by
    obtain ⟨t, hf, _, hi⟩ := Blocks.cover_out i
    exact ⟨t, hf, hi⟩

/-- The run, read: the result array at the cell function of the arrays the region finds, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.RefValue

end
-- ==== Proof.RefCell.lean ====
/-
  The reference's result is the cell function.

  Read one operation at a time, the reference's result at column n is
      sigma(pre_o) * tanh(c0 * sigma(pre_f) + tanh(pre_c) * sigma(pre_i)),
  where each pre-activation is the inner product of the joined row with column n of the gate's weight matrix plus
  the gate's bias at n, and sigma(p) is printed as 1 / (1 + exp(-p)) with the constant one given by its float word.
  The lemmas: the contraction's and the broadcast's index maps are the coordinate indices (the row coordinate, in an
  axis of extent one, is zero); a contraction plus a broadcast bias is the pre-activation; the printed quotient is
  the logistic function; then one lemma per gate, and the result from the four.
-/
import proofs.«128584_j66554813218870_1_alg».proof.Proof.Gen.ReferenceIdeal.Read
import proofs.«128584_j66554813218870_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The contraction index of the joined row: its row coordinate, in an axis of extent one, is zero. -/
theorem lidx_eq (i : S1x4096.Idx) (k : Fin 8192) : lidx_main_v1 i k = ix2 (0 : Fin 1) k :=
  funext fun a => Fin.ext (by
    match a with
    | ⟨0, _⟩ => exact Nat.lt_one_iff.mp (i 0).isLt
    | ⟨1, _⟩ => rfl)

/-- The contraction index of a weight matrix: row k, the output column. -/
theorem ridx_eq (i : S1x4096.Idx) (k : Fin 8192) : ridx_main_v1 i k = ix2 k (i 1) :=
  funext fun a => Fin.ext (by
    match a with
    | ⟨0, _⟩ => rfl
    | ⟨1, _⟩ => rfl)

/-- A bias vector is read at the output column. -/
theorem bidx_eq (i : S1x4096.Idx) : idx_main_v2 i = ix1 (i 1) :=
  funext fun a => Fin.ext (by
    match a with
    | ⟨0, _⟩ => rfl)

/-- A contraction over the joined row plus a broadcast bias is the gate's pre-activation at the output column. -/
theorem dot_bias (cc : Cert.Lstm.Row 8192) (W : Cert.Lstm.Mat) (b : Cert.Lstm.Bias) (i : S1x4096.Idx) :
    (∑ k : Fin 8192, cc (lidx_main_v1 i k) * W (ridx_main_v1 i k)) + b (idx_main_v2 i)
      = Cert.Lstm.pre cc W b (i 1) := by
  unfold Cert.Lstm.pre
  rw [bidx_eq]
  congr 1
  refine Finset.sum_congr rfl fun k _ => ?_
  rw [lidx_eq, ridx_eq]
  rfl

/-- The quotient of one by one plus the exponential of the negated argument is the logistic function. -/
theorem sigmoid_eq (p : EReal) :
    FloatOps.hostDivf (F := Ideal) (φ := .f32) (FloatOps.ofBits .f32 0x3F800000#32)
        (FloatOps.addf (FloatOps.ofBits .f32 0x3F800000#32) (FloatOps.hostUnary .exp (FloatOps.hostNegf p)))
      = Ideal.logistic p := by
  simp only [Ideal.hostDivf_def, Ideal.addf_def, Ideal.hostUnary_exp_def, Ideal.hostNegf_def, Ideal.negf_def,
    Ideal.ofBits_def, Cert.Lstm.ofBits_one, Ideal.logistic]

/-- The forget gate's pre-activation. -/
theorem pre_f (x0 x1 : (⟨S1x4096, .f32⟩ : BufTy).Contents (Elt Ideal)) (x3 : (⟨S8192x4096, .f32⟩ : BufTy).Contents (Elt Ideal))
    (x4 : (⟨S4096, .f32⟩ : BufTy).Contents (Elt Ideal)) (i : S1x4096.Idx) :
    val_main_v7 (F := Ideal) x0 x1 x3 x4 i = Cert.Lstm.pre (val_main_v0 (F := Ideal) x0 x1) x3 x4 (i 1) := by
  rw [val_main_v7_apply, val_main_v5_apply, val_main_v6_apply]
  exact dot_bias _ x3 x4 i

/-- The forget gate. -/
theorem gate_f (x0 x1 : (⟨S1x4096, .f32⟩ : BufTy).Contents (Elt Ideal)) (x3 : (⟨S8192x4096, .f32⟩ : BufTy).Contents (Elt Ideal))
    (x4 : (⟨S4096, .f32⟩ : BufTy).Contents (Elt Ideal)) (i : S1x4096.Idx) :
    val_main_v13 (F := Ideal) x0 x1 x3 x4 i = Ideal.logistic (Cert.Lstm.pre (val_main_v0 (F := Ideal) x0 x1) x3 x4 (i 1)) := by
  rw [← pre_f]
  exact sigmoid_eq _

/-- The input gate's pre-activation. -/
theorem pre_i (x0 x1 : (⟨S1x4096, .f32⟩ : BufTy).Contents (Elt Ideal)) (x5 : (⟨S8192x4096, .f32⟩ : BufTy).Contents (Elt Ideal))
    (x6 : (⟨S4096, .f32⟩ : BufTy).Contents (Elt Ideal)) (i : S1x4096.Idx) :
    val_main_v16 (F := Ideal) x0 x1 x5 x6 i = Cert.Lstm.pre (val_main_v0 (F := Ideal) x0 x1) x5 x6 (i 1) := by
  rw [val_main_v16_apply, val_main_v14_apply, val_main_v15_apply]
  exact dot_bias _ x5 x6 i

/-- The input gate. -/
theorem gate_i (x0 x1 : (⟨S1x4096, .f32⟩ : BufTy).Contents (Elt Ideal)) (x5 : (⟨S8192x4096, .f32⟩ : BufTy).Contents (Elt Ideal))
    (x6 : (⟨S4096, .f32⟩ : BufTy).Contents (Elt Ideal)) (i : S1x4096.Idx) :
    val_main_v22 (F := Ideal) x0 x1 x5 x6 i = Ideal.logistic (Cert.Lstm.pre (val_main_v0 (F := Ideal) x0 x1) x5 x6 (i 1)) := by
  rw [← pre_i]
  exact sigmoid_eq _

/-- The output gate's pre-activation. -/
theorem pre_o (x0 x1 : (⟨S1x4096, .f32⟩ : BufTy).Contents (Elt Ideal)) (x9 : (⟨S8192x4096, .f32⟩ : BufTy).Contents (Elt Ideal))
    (x10 : (⟨S4096, .f32⟩ : BufTy).Contents (Elt Ideal)) (i : S1x4096.Idx) :
    val_main_v25 (F := Ideal) x0 x1 x9 x10 i = Cert.Lstm.pre (val_main_v0 (F := Ideal) x0 x1) x9 x10 (i 1) := by
  rw [val_main_v25_apply, val_main_v23_apply, val_main_v24_apply]
  exact dot_bias _ x9 x10 i

/-- The output gate. -/
theorem gate_o (x0 x1 : (⟨S1x4096, .f32⟩ : BufTy).Contents (Elt Ideal)) (x9 : (⟨S8192x4096, .f32⟩ : BufTy).Contents (Elt Ideal))
    (x10 : (⟨S4096, .f32⟩ : BufTy).Contents (Elt Ideal)) (i : S1x4096.Idx) :
    val_main_v31 (F := Ideal) x0 x1 x9 x10 i = Ideal.logistic (Cert.Lstm.pre (val_main_v0 (F := Ideal) x0 x1) x9 x10 (i 1)) := by
  rw [← pre_o]
  exact sigmoid_eq _

/-- The candidate's pre-activation. -/
theorem pre_c (x0 x1 : (⟨S1x4096, .f32⟩ : BufTy).Contents (Elt Ideal)) (x7 : (⟨S8192x4096, .f32⟩ : BufTy).Contents (Elt Ideal))
    (x8 : (⟨S4096, .f32⟩ : BufTy).Contents (Elt Ideal)) (i : S1x4096.Idx) :
    val_main_v3 (F := Ideal) x0 x1 x7 x8 i = Cert.Lstm.pre (val_main_v0 (F := Ideal) x0 x1) x7 x8 (i 1) := by
  rw [val_main_v3_apply, val_main_v1_apply, val_main_v2_apply]
  exact dot_bias _ x7 x8 i

/-- The candidate: the hyperbolic tangent of its pre-activation. -/
theorem cand_c (x0 x1 : (⟨S1x4096, .f32⟩ : BufTy).Contents (Elt Ideal)) (x7 : (⟨S8192x4096, .f32⟩ : BufTy).Contents (Elt Ideal))
    (x8 : (⟨S4096, .f32⟩ : BufTy).Contents (Elt Ideal)) (i : S1x4096.Idx) :
    val_main_v4 (F := Ideal) x0 x1 x7 x8 i = Ideal.tanh (Cert.Lstm.pre (val_main_v0 (F := Ideal) x0 x1) x7 x8 (i 1)) := by
  rw [← pre_c]
  rfl

/-- The reference's result is the cell function of the joined row, the four gates' weights and biases, and the old cell state. -/
theorem ref_cell (x0 x1 x2 : (⟨S1x4096, .f32⟩ : BufTy).Contents (Elt Ideal)) (x3 : (⟨S8192x4096, .f32⟩ : BufTy).Contents (Elt Ideal)) (x4 : (⟨S4096, .f32⟩ : BufTy).Contents (Elt Ideal)) (x5 : (⟨S8192x4096, .f32⟩ : BufTy).Contents (Elt Ideal)) (x6 : (⟨S4096, .f32⟩ : BufTy).Contents (Elt Ideal)) (x7 : (⟨S8192x4096, .f32⟩ : BufTy).Contents (Elt Ideal)) (x8 : (⟨S4096, .f32⟩ : BufTy).Contents (Elt Ideal)) (x9 : (⟨S8192x4096, .f32⟩ : BufTy).Contents (Elt Ideal)) (x10 : (⟨S4096, .f32⟩ : BufTy).Contents (Elt Ideal)) :
    val_main_v36 (F := Ideal) x0 x1 x2 x3 x4 x5 x6 x7 x8 x9 x10
      = Cert.Lstm.cell (val_main_v0 (F := Ideal) x0 x1) x3 x4 x5 x6 x7 x8 x9 x10 x2 := by
  funext i
  rw [val_main_v36_apply, val_main_v35_apply, val_main_v34_apply, val_main_v32_apply, val_main_v33_apply,
    gate_o, gate_f, gate_i, cand_c]
  rfl

end Cert.ReferenceIdeal.RefValue

end
-- ==== Proof.lean ====
/-
  The new hidden state of an LSTM cell, computed by a tiled kernel, against the plain formula.

  The kernel walks an 8 x 8 grid: for each block of 512 output columns it runs over the eight 1024-long stretches of
  the joined row [h0, x], keeping for each of the four gates a running sum of (stretch of the row) times (tile of the gate's
  weights); after the eighth stretch it adds the biases and applies
      h = sigma(o) * tanh(c0 * sigma(f) + tanh(c) * sigma(i)).
  The reference computes each gate's pre-activation as ONE inner product over all 8192 positions and spells the
  logistic function as 1 / (1 + exp(-p)). Over the extended reals the narrowing of the matrix operands to a shorter float
  format is the identity, the eight partial sums add up to the one inner product by associativity alone, and the
  kernel's logistic operation is by definition that quotient; so both results are the same function of the arguments,
  column by column, and no finiteness of the inputs is used.
  The three frames: the two kernel programs by their generated frame certificates, the reference by its generated run.
-/
import proofs.«128584_j66554813218870_1_alg».proof.Defs
import proofs.«128584_j66554813218870_1_alg».proof.Proof.Gen.Kernel
import proofs.«128584_j66554813218870_1_alg».proof.Proof.Gen.Kernel.Skeleton
import proofs.«128584_j66554813218870_1_alg».proof.Proof.Gen.Kernel.Launch
import proofs.«128584_j66554813218870_1_alg».proof.Proof.Gen.Kernel.Points
import proofs.«128584_j66554813218870_1_alg».proof.Proof.Gen.Kernel.Frame
import proofs.«128584_j66554813218870_1_alg».proof.Proof.Gen.KernelIdeal
import proofs.«128584_j66554813218870_1_alg».proof.Proof.Gen.KernelIdeal.Skeleton
import proofs.«128584_j66554813218870_1_alg».proof.Proof.Gen.KernelIdeal.Launch
import proofs.«128584_j66554813218870_1_alg».proof.Proof.Gen.KernelIdeal.Points
import proofs.«128584_j66554813218870_1_alg».proof.Proof.Gen.KernelIdeal.Frame
import proofs.«128584_j66554813218870_1_alg».proof.Proof.Gen.ReferenceIdeal
import proofs.«128584_j66554813218870_1_alg».proof.Proof.Gen.Pre_finite_inputs
import proofs.«128584_j66554813218870_1_alg».proof.Proof.Gen.KernelIdeal.Value
import proofs.«128584_j66554813218870_1_alg».proof.Proof.Gen.ReferenceIdeal.Run
import proofs.«128584_j66554813218870_1_alg».proof.Proof.Gen.ReferenceIdeal.Read
import proofs.«128584_j66554813218870_1_alg».proof.Proof.KernelValue
import proofs.«128584_j66554813218870_1_alg».proof.Proof.RefCell
import Idealize.ShloMosaic.Adequacy
import Idealize.ShloMosaic.Init

noncomputable section

namespace Cert.Proof

open Idealize.ShloMosaic Idealize.SL.Sem

/-- The word-level kernel runs and leaves its arguments as they were: its generated frame certificate. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments as they were: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the cell function of arguments that agree. -/
theorem algebraic : Cert.algebraic_KernelIdeal_ReferenceIdeal := by
  intro m ρ m' ρ' _ hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v36_eq, Cert.ReferenceIdeal.RefValue.ref_cell, a0, a1, a2, a3, a4, a5, a6, a7, a8, a9, a10]
  show _ = Cert.Lstm.cell (Cert.KernelIdeal.Cols.joined m c) _ _ _ _ _ _ _ _ _
  rw [show Cert.KernelIdeal.Cols.joined m c = _ from Cert.KernelIdeal.Blocks.V_joined m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
